-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1x4096x1024 : Shape := ⟨4, ![4, 1, 4096, 1024]⟩
abbrev S256x1024 : Shape := ⟨2, ![256, 1024]⟩
abbrev S16x1024 : Shape := ⟨2, ![16, 1024]⟩
abbrev S1024 : Shape := ⟨1, ![1024]⟩
abbrev S_ : Shape := ⟨0, ![]⟩

class Facts : Prop where
  bcast_S_S4x1x4096x1024 : S_.BroadcastsInDim S4x1x4096x1024 (![] : Fin 0 → Fin S4x1x4096x1024.rank)
  reducesTo_S4x1x4096x1024_S_d0_1_2_3 : S4x1x4096x1024.ReducesTo [0, 1, 2, 3] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S16x1024 : S_.BroadcastsInDim S16x1024 (![] : Fin 0 → Fin S16x1024.rank)
  reducesTo_S16x1024_S_d0_1 : S16x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x1x4096x1024 .f32) (main_arg1 : FVec F S256x1024 .f32) (main_arg2 : FVec F S16x1024 .f32) (main_arg3 : FVec F S1024 .f32) (main_arg4 : FVec F S1024 .f32) : IVec S_ 1 :=
  let main_v0 : FVec F S4x1x4096x1024 .f32 := Host.absf main_arg0
  let main_cst : FVec F S_ .f32 := constant S_ .f32 0x7F800000#32
  let main_v1 : FVec F S4x1x4096x1024 .f32 := broadcastInDim S4x1x4096x1024 ![] bcast_S_S4x1x4096x1024 main_cst
  let main_v2 : IVec S4x1x4096x1024 1 := cmpf .olt main_v0 main_v1
  let main_c : IVec S_ 1 := constantI S_ 1 1#1
  let main_v3 : IVec S_ 1 := (fun x v => Host.reduce IntOp.andi x v reducesTo_S4x1x4096x1024_S_d0_1_2_3 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S16x1024 .f32 := Host.absf main_arg2
  let main_cst_2 : FVec F S_ .f32 := constant S_ .f32 0x7F800000#32
  let main_v10 : FVec F S16x1024 .f32 := broadcastInDim S16x1024 ![] bcast_S_S16x1024 main_cst_2
  let main_v11 : IVec S16x1024 1 := cmpf .olt main_v9 main_v10
  let main_c_3 : IVec S_ 1 := constantI S_ 1 1#1
  let main_v12 : IVec S_ 1 := (fun x v => Host.reduce IntOp.andi x v reducesTo_S16x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S4x1x4096x1024 : Shape := ⟨4, ![4, 1, 4096, 1024]⟩
abbrev S256x1024 : Shape := ⟨2, ![256, 1024]⟩
abbrev S16x1024 : Shape := ⟨2, ![16, 1024]⟩
abbrev S1024 : Shape := ⟨1, ![1024]⟩
abbrev S8x128x16x1024 : Shape := ⟨4, ![8, 128, 16, 1024]⟩
abbrev S2x128x1024 : Shape := ⟨3, ![2, 128, 1024]⟩
abbrev S1x1024 : Shape := ⟨2, ![1, 1024]⟩
abbrev S1x128x1024 : Shape := ⟨3, ![1, 128, 1024]⟩
abbrev S1x128x16x1024 : Shape := ⟨4, ![1, 128, 16, 1024]⟩
abbrev S2x128x16x1024 : Shape := ⟨4, ![2, 128, 16, 1024]⟩
abbrev S128x1024 : Shape := ⟨2, ![128, 1024]⟩
abbrev S128x1x1024 : Shape := ⟨3, ![128, 1, 1024]⟩
abbrev S1x16x1024 : Shape := ⟨3, ![1, 16, 1024]⟩
abbrev S128x16x1024 : Shape := ⟨3, ![128, 16, 1024]⟩
abbrev S128x16 : Shape := ⟨2, ![128, 16]⟩
abbrev S128x16x1 : Shape := ⟨3, ![128, 16, 1]⟩
abbrev S1x1x1024 : Shape := ⟨3, ![1, 1, 1024]⟩

abbrev nBuf : Space → Nat
  | .hbm => 11
  | .vmem => 10
  | .smem => 0
  | _ => 0

abbrev bufTy : (tb : Table) → Fin (tcTables nBuf tb) → BufTy
  | .hbm, ⟨0, _⟩ => ⟨S4x1x4096x1024, .f32⟩
  | .hbm, ⟨1, _⟩ => ⟨S256x1024, .f32⟩
  | .hbm, ⟨2, _⟩ => ⟨S16x1024, .f32⟩
  | .hbm, ⟨3, _⟩ => ⟨S1024, .f32⟩
  | .hbm, ⟨4, _⟩ => ⟨S1024, .f32⟩
  | .hbm, ⟨5, _⟩ => ⟨S8x128x16x1024, .f32⟩
  | .hbm, ⟨6, _⟩ => ⟨S2x128x1024, .f32⟩
  | .hbm, ⟨7, _⟩ => ⟨S1x1024, .f32⟩
  | .hbm, ⟨8, _⟩ => ⟨S1x1024, .f32⟩
  | .hbm, ⟨9, _⟩ => ⟨S8x128x16x1024, .f32⟩
  | .hbm, ⟨10, _⟩ => ⟨S4x1x4096x1024, .f32⟩
  | .local _ .vmem, ⟨0, _⟩ => ⟨S1x128x1024, .f32⟩
  | .local _ .vmem, ⟨1, _⟩ => ⟨S1x128x1024, .f32⟩
  | .local _ .vmem, ⟨2, _⟩ => ⟨S16x1024, .f32⟩
  | .local _ .vmem, ⟨3, _⟩ => ⟨S1x1024, .f32⟩
  | .local _ .vmem, ⟨4, _⟩ => ⟨S1x1024, .f32⟩
  | .local _ .vmem, ⟨5, _⟩ => ⟨S1x128x16x1024, .f32⟩
  | .local _ .vmem, ⟨6, _⟩ => ⟨S1x128x16x1024, .f32⟩
  | .local _ .vmem, ⟨7, _⟩ => ⟨S1x128x16x1024, .f32⟩
  | .local _ .vmem, ⟨8, _⟩ => ⟨S1x128x16x1024, .f32⟩
  | .local _ .vmem, ⟨9, _⟩ => ⟨S2x128x16x1024, .f32⟩
  | _, _ => ⟨S4x1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c2_i32_0 : BitVec 32 := 2#32
  let v1 : BitVec 1 := Scalar.cmpi .slt arg0 c2_i32_0
  let v2 : BitVec 32 := Scalar.extui v1
  let c0_i32 : BitVec 32 := 0#32
  let v3 : BitVec 1 := Scalar.cmpi .ne v2 c0_i32
  v3

def k0_off1 (i : grid0.Coords) : Fin 4 → Nat :=
  let arg0 : BitVec 32 := BitVec.ofNat 32 (i 0).val
  let c2_i32 : BitVec 32 := 2#32
  let v0 : BitVec 32 := Scalar.remsi arg0 c2_i32
  let v45 : Index := Scalar.indexCast v0
  let c0_24 : Index := 0#32
  let c0_25 : Index := 0#32
  let c0_26 : Index := 0#32
  ![v45.toNat, 0, 0, 0]
def k0_off2 (i : grid0.Coords) : Fin 4 → Nat :=
  let arg0 : BitVec 32 := BitVec.ofNat 32 (i 0).val
  let c2_i32 : BitVec 32 := 2#32
  let v0 : BitVec 32 := Scalar.remsi arg0 c2_i32
  let v6 : Index := Scalar.indexCast v0
  let c0_4 : Index := 0#32
  let c0_5 : Index := 0#32
  let c0_6 : Index := 0#32
  ![v6.toNat, 0, 0, 0]
def cc0_transform_0 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x1x4096x1024_S8x128x16x1024 : S4x1x4096x1024.ShapeCasts S8x128x16x1024
  shapeCasts_S256x1024_S2x128x1024 : S256x1024.ShapeCasts S2x128x1024
  shapeCasts_S1024_S1x1024 : S1024.ShapeCasts S1x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  shapeCasts_S128x1024_S128x1x1024 : S128x1024.ShapeCasts S128x1x1024
  inb_S16x1024_S16x1024_0_0 : ∀ a, (![0, 0] : Fin 2 → Nat) a + S16x1024.size a ≤ S16x1024.size a
  h_S16x1024 : 0 < S16x1024.numel
  shapeCasts_S16x1024_S1x16x1024 : S16x1024.ShapeCasts S1x16x1024
  broadcasts_S128x1x1024_S128x16x1024 : S128x1x1024.Broadcasts S128x16x1024
  broadcasts_S1x16x1024_S128x16x1024 : S1x16x1024.Broadcasts S128x16x1024
  reduces_S128x16x1024_S128x16 : S128x16x1024.Reduces [2] S128x16
  shapeCasts_S128x16_S128x16x1 : S128x16.ShapeCasts S128x16x1
  broadcasts_S128x16x1_S128x16x1024 : S128x16x1.Broadcasts S128x16x1024
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  shapeCasts_S1024_S1x1x1024 : S1024.ShapeCasts S1x1x1024
  broadcasts_S1x1x1024_S128x16x1024 : S1x1x1024.Broadcasts S128x16x1024
  shapeCasts_S128x16x1024_S1x128x16x1024 : S128x16x1024.ShapeCasts S1x128x16x1024
  h_S1x128x16x1024 : 0 < S1x128x16x1024.numel
  shapeCasts_S1x128x16x1024_S1x128x16x1024 : S1x128x16x1024.ShapeCasts S1x128x16x1024
  inb_S1x128x16x1024_S1x128x16x1024_0_0_0_0 : ∀ a, (![0, 0, 0, 0] : Fin 4 → Nat) a + S1x128x16x1024.size a ≤ S1x128x16x1024.size a
  shapeCasts_S8x128x16x1024_S4x1x4096x1024 : S8x128x16x1024.ShapeCasts S4x1x4096x1024
  hrank0 : 0 < grid0.rank
  k0_off1_inb : ∀ i : grid0.Coords, ∀ (k0_h1 : k0_cond1 i = 1#1), ∀ a, (k0_off1 i) a + S1x128x16x1024.size a ≤ S2x128x16x1024.size a
  k0_off2_inb : ∀ i : grid0.Coords, ∀ a, (k0_off2 i) a + S1x128x16x1024.size a ≤ S2x128x16x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S2x128x1024.size a
  hwx0_0 : ∀ i : grid0.Coords, EltTy.bits .f32 = 32 ∨ (Rect.block (s := S2x128x1024) S1x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S16x1024.size a
  hwx0_1 : ∀ i : grid0.Coords, EltTy.bits .f32 = 32 ∨ (Rect.block (s := S16x1024) S16x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x16x1024.size a ≤ S8x128x16x1024.size a
  hwx0_4 : ∀ i : grid0.Coords, EltTy.bits .f32 = 32 ∨ (Rect.block (s := S8x128x16x1024) S1x128x16x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x16x1024.size a ≤ S8x128x16x1024.size a
  hwx0_5 : ∀ i : grid0.Coords, EltTy.bits .f32 = 32 ∨ (Rect.block (s := S8x128x16x1024) S1x128x16x1024.size (cc0_transform_5 i) (hinb0_5 i)).WholeWords (EltTy.packing .f32)

variable [Facts₀]

abbrev win0_0 : Pipeline.Window sig grid0 :=
  Pipeline.Window.ofSpec (Memref.whole main_v1) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128x16x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x128x16x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x1x4096x1024 : Shape := ⟨4, ![4, 1, 4096, 1024]⟩
abbrev S256x1024 : Shape := ⟨2, ![256, 1024]⟩
abbrev S16x1024 : Shape := ⟨2, ![16, 1024]⟩
abbrev S1024 : Shape := ⟨1, ![1024]⟩
abbrev S256x16 : Shape := ⟨2, ![256, 16]⟩
abbrev S1x1x4096 : Shape := ⟨3, ![1, 1, 4096]⟩
abbrev S256 : Shape := ⟨1, ![256]⟩
abbrev S1x1x4096x1 : Shape := ⟨4, ![1, 1, 4096, 1]⟩
abbrev S1x1x1x256 : Shape := ⟨4, ![1, 1, 1, 256]⟩
abbrev S1x1x4096x256 : Shape := ⟨4, ![1, 1, 4096, 256]⟩
abbrev S1x1x4096x1024 : Shape := ⟨4, ![1, 1, 4096, 1024]⟩
abbrev S16 : Shape := ⟨1, ![16]⟩
abbrev S1x1x1x16 : Shape := ⟨4, ![1, 1, 1, 16]⟩
abbrev S1x1x4096x16 : Shape := ⟨4, ![1, 1, 4096, 16]⟩
abbrev S_ : Shape := ⟨0, ![]⟩
abbrev S1x1x1x1024 : Shape := ⟨4, ![1, 1, 1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S4x1x4096x1024, .f32⟩
  | .hbm, ⟨1, _⟩ => ⟨S256x1024, .f32⟩
  | .hbm, ⟨2, _⟩ => ⟨S16x1024, .f32⟩
  | .hbm, ⟨3, _⟩ => ⟨S1024, .f32⟩
  | .hbm, ⟨4, _⟩ => ⟨S1024, .f32⟩
  | .hbm, ⟨5, _⟩ => ⟨S256x16, .i32⟩
  | .hbm, ⟨6, _⟩ => ⟨S256x16, .i32⟩
  | .hbm, ⟨7, _⟩ => ⟨S1x1x4096, .i32⟩
  | .hbm, ⟨8, _⟩ => ⟨S1x1x4096, .i32⟩
  | .hbm, ⟨9, _⟩ => ⟨S256, .i32⟩
  | .hbm, ⟨10, _⟩ => ⟨S1x1x4096x1, .i32⟩
  | .hbm, ⟨11, _⟩ => ⟨S1x1x1x256, .i32⟩
  | .hbm, ⟨12, _⟩ => ⟨S1x1x4096x256, .i32⟩
  | .hbm, ⟨13, _⟩ => ⟨S1x1x4096x256, .i32⟩
  | .hbm, ⟨14, _⟩ => ⟨S1x1x4096x256, .i1⟩
  | .hbm, ⟨15, _⟩ => ⟨S1x1x4096x256, .f32⟩
  | .hbm, ⟨16, _⟩ => ⟨S1x1x4096x1024, .f32⟩
  | .hbm, ⟨17, _⟩ => ⟨S16, .i32⟩
  | .hbm, ⟨18, _⟩ => ⟨S1x1x4096x1, .i32⟩
  | .hbm, ⟨19, _⟩ => ⟨S1x1x1x16, .i32⟩
  | .hbm, ⟨20, _⟩ => ⟨S1x1x4096x16, .i32⟩
  | .hbm, ⟨21, _⟩ => ⟨S1x1x4096x16, .i32⟩
  | .hbm, ⟨22, _⟩ => ⟨S1x1x4096x16, .i1⟩
  | .hbm, ⟨23, _⟩ => ⟨S1x1x4096x16, .f32⟩
  | .hbm, ⟨24, _⟩ => ⟨S1x1x4096x1024, .f32⟩
  | .hbm, ⟨25, _⟩ => ⟨S1x1x4096x1024, .f32⟩
  | .hbm, ⟨26, _⟩ => ⟨S_, .f32⟩
  | .hbm, ⟨27, _⟩ => ⟨S1x1x4096, .f32⟩
  | .hbm, ⟨28, _⟩ => ⟨S1x1x4096x1, .f32⟩
  | .hbm, ⟨29, _⟩ => ⟨S_, .f32⟩
  | .hbm, ⟨30, _⟩ => ⟨S1x1x4096x1, .f32⟩
  | .hbm, ⟨31, _⟩ => ⟨S1x1x4096x1, .f32⟩
  | .hbm, ⟨32, _⟩ => ⟨S_, .i32⟩
  | .hbm, ⟨33, _⟩ => ⟨S_, .f32⟩
  | .hbm, ⟨34, _⟩ => ⟨S1x1x4096, .f32⟩
  | .hbm, ⟨35, _⟩ => ⟨S1x1x4096x1, .f32⟩
  | .hbm, ⟨36, _⟩ => ⟨S_, .f32⟩
  | .hbm, ⟨37, _⟩ => ⟨S1x1x4096x1, .f32⟩
  | .hbm, ⟨38, _⟩ => ⟨S1x1x4096x1, .f32⟩
  | .hbm, ⟨39, _⟩ => ⟨S1x1x4096x1024, .f32⟩
  | .hbm, ⟨40, _⟩ => ⟨S1x1x4096x1024, .f32⟩
  | .hbm, ⟨41, _⟩ => ⟨S1x1x4096x1024, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1x1x4096, .f32⟩
  | .hbm, ⟨47, _⟩ => ⟨S1x1x4096x1, .f32⟩
  | .hbm, ⟨48, _⟩ => ⟨S1x1x4096x1, .f32⟩
  | .hbm, ⟨49, _⟩ => ⟨S1x1x4096x1, .f32⟩
  | .hbm, ⟨50, _⟩ => ⟨S_, .f32⟩
  | .hbm, ⟨51, _⟩ => ⟨S_, .i1⟩
  | .hbm, ⟨52, _⟩ => ⟨S_, .f32⟩
  | .hbm, ⟨53, _⟩ => ⟨S_, .f32⟩
  | .hbm, ⟨54, _⟩ => ⟨S1x1x4096x1, .f32⟩
  | .hbm, ⟨55, _⟩ => ⟨S1x1x4096x1, .f32⟩
  | .hbm, ⟨56, _⟩ => ⟨S1x1x4096x1024, .f32⟩
  | .hbm, ⟨57, _⟩ => ⟨S1x1x4096x1024, .f32⟩
  | .hbm, ⟨58, _⟩ => ⟨S_, .f32⟩
  | .hbm, ⟨59, _⟩ => ⟨S1x1x4096x1, .f32⟩
  | .hbm, ⟨60, _⟩ => ⟨S1x1x4096x1, .f32⟩
  | .hbm, ⟨61, _⟩ => ⟨S1x1x4096x1, .f32⟩
  | .hbm, ⟨62, _⟩ => ⟨S1x1x4096x1024, .f32⟩
  | .hbm, ⟨63, _⟩ => ⟨S1x1x4096x1024, .f32⟩
  | .hbm, ⟨64, _⟩ => ⟨S1x1x1x1024, .f32⟩
  | .hbm, ⟨65, _⟩ => ⟨S1x1x4096x1024, .f32⟩
  | .hbm, ⟨66, _⟩ => ⟨S1x1x4096x1024, .f32⟩
  | .hbm, ⟨67, _⟩ => ⟨S1x1x1x1024, .f32⟩
  | .hbm, ⟨68, _⟩ => ⟨S1x1x4096x1024, .f32⟩
  | .hbm, ⟨69, _⟩ => ⟨S1x1x4096x1024, .f32⟩
  | .hbm, ⟨70, _⟩ => ⟨S4x1x4096x1024, .f32⟩
  | .hbm, ⟨71, _⟩ => ⟨S4x1x4096x1024, .f32⟩
  | _, _ => ⟨S4x1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_cst_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_cst_1 : Ref sig .tc := ⟨.hbm, 43, rfl⟩
abbrev main_call0_v8 : Ref sig .tc := ⟨.hbm, 44, rfl⟩
abbrev main_call0_cst_2 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_v12 : Ref sig .tc := ⟨.hbm, 49, rfl⟩
abbrev main_call0_cst_3 : Ref sig .tc := ⟨.hbm, 50, rfl⟩
abbrev main_call0_v13 : Ref sig .tc := ⟨.hbm, 51, rfl⟩
abbrev main_call0_cst_4 : Ref sig .tc := ⟨.hbm, 52, rfl⟩
abbrev main_call0_call0_v0 : Ref sig .tc := ⟨.hbm, 53, rfl⟩
abbrev main_call0_call0_v1 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_1 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩

abbrev nD : Nat := 1
abbrev τ : Topo := Topo.v7x

variable {F : FTy → Type} [FloatOps F]

class Facts₀ : Prop where
  shapeCasts_S256x16_S1x1x4096 : S256x16.ShapeCasts S1x1x4096
  bcast_S1x1x4096_S1x1x4096x1_0_1_2 : S1x1x4096.BroadcastsInDim S1x1x4096x1 (![0, 1, 2] : Fin 3 → Fin S1x1x4096x1.rank)
  bcast_S256_S1x1x1x256_3 : S256.BroadcastsInDim S1x1x1x256 (![3] : Fin 1 → Fin S1x1x1x256.rank)
  bcast_S1x1x4096x1_S1x1x4096x256_0_1_2_3 : S1x1x4096x1.BroadcastsInDim S1x1x4096x256 (![0, 1, 2, 3] : Fin 4 → Fin S1x1x4096x256.rank)
  bcast_S1x1x1x256_S1x1x4096x256_0_1_2_3 : S1x1x1x256.BroadcastsInDim S1x1x4096x256 (![0, 1, 2, 3] : Fin 4 → Fin S1x1x4096x256.rank)
  bcast_S16_S1x1x1x16_3 : S16.BroadcastsInDim S1x1x1x16 (![3] : Fin 1 → Fin S1x1x1x16.rank)
  bcast_S1x1x4096x1_S1x1x4096x16_0_1_2_3 : S1x1x4096x1.BroadcastsInDim S1x1x4096x16 (![0, 1, 2, 3] : Fin 4 → Fin S1x1x4096x16.rank)
  bcast_S1x1x1x16_S1x1x4096x16_0_1_2_3 : S1x1x1x16.BroadcastsInDim S1x1x4096x16 (![0, 1, 2, 3] : Fin 4 → Fin S1x1x4096x16.rank)
  reducesTo_S1x1x4096x1024_S1x1x4096_d3 : S1x1x4096x1024.ReducesTo [3] S1x1x4096
  h_S_ : 0 < S_.numel
  bcast_S_S1x1x4096x1 : S_.BroadcastsInDim S1x1x4096x1 (![] : Fin 0 → Fin S1x1x4096x1.rank)
  bcast_S1x1x4096x1_S1x1x4096x1024_0_1_2_3 : S1x1x4096x1.BroadcastsInDim S1x1x4096x1024 (![0, 1, 2, 3] : Fin 4 → Fin S1x1x4096x1024.rank)
  bcast_S1024_S1x1x1x1024_3 : S1024.BroadcastsInDim S1x1x1x1024 (![3] : Fin 1 → Fin S1x1x1x1024.rank)
  bcast_S1x1x1x1024_S1x1x4096x1024_0_1_2_3 : S1x1x1x1024.BroadcastsInDim S1x1x4096x1024 (![0, 1, 2, 3] : Fin 4 → Fin S1x1x4096x1024.rank)
  bcast_S1x1x4096x1024_S4x1x4096x1024_0_1_2_3 : S1x1x4096x1024.BroadcastsInDim S4x1x4096x1024 (![0, 1, 2, 3] : Fin 4 → Fin S4x1x4096x1024.rank)
  dot_S1x1x4096x256_S256x1024_S1x1x4096x1024_3_0_012_1_n_n_wf : DotDims.WF S1x1x4096x256 S256x1024 S1x1x4096x1024 [3] [0] [0, 1, 2] [1] [] []
  dot_S1x1x4096x16_S16x1024_S1x1x4096x1024_3_0_012_1_n_n_wf : DotDims.WF S1x1x4096x16 S16x1024 S1x1x4096x1024 [3] [0] [0, 1, 2] [1] [] []

variable [Facts₀]

def dot_S1x1x4096x256_S256x1024_S1x1x4096x1024_3_0_012_1_n_n : DotDims S1x1x4096x256 S256x1024 S1x1x4096x1024 where
  lhsContracting := [3]
  rhsContracting := [0]
  lhsNonContracting := [0, 1, 2]
  rhsNonContracting := [1]
  lhsBatch := []
  rhsBatch := []
  wf := dot_S1x1x4096x256_S256x1024_S1x1x4096x1024_3_0_012_1_n_n_wf
def dot_S1x1x4096x16_S16x1024_S1x1x4096x1024_3_0_012_1_n_n : DotDims S1x1x4096x16 S16x1024 S1x1x4096x1024 where
  lhsContracting := [3]
  rhsContracting := [0]
  lhsNonContracting := [0, 1, 2]
  rhsNonContracting := [1]
  lhsBatch := []
  rhsBatch := []
  wf := dot_S1x1x4096x16_S16x1024_S1x1x4096x1024_3_0_012_1_n_n_wf

class Facts : Prop extends Facts₀ where

variable [Facts]
-- ==== Proof.KernelBody.lean ====
/-
  The kernel's frame and what it leaves in its output, for any float instance.

  The grid has 8 points. Point `t` works on slab `t` of the activations (128 temporal rows × 16 spectral rows ×
  1024 features) and on half `t % 2` of the temporal table. At points 0 and 1 the body first computes the position
  encoding of its half — the layer norm of (temporal row + spectral row), scaled and shifted — and keeps it in slab
  `t % 2` of a scratch buffer; at every point it adds slab `t % 2` of the scratch to the activations' slab. So the
  scratch is carried between points: after point 0 its slab 0 holds half 0's encoding, after point 1 also slab 1
  holds half 1's, and the output block of point `t` is the activations' block plus half `t % 2`'s encoding.
-/
import proofs.«137637_g22428319220377_cont_9to1_50_16_alg».proof.Proof.Gen.Kernel.Frame
import proofs.«137637_g22428319220377_cont_9to1_50_16_alg».proof.Proof.Gen.Kernel.Skeleton
import Idealize.ShloMosaic.Lib.Pipeline.Value
import Idealize.ShloMosaic.Lib.WritesUnit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point numbered `h`, for `h` one of the two halves. -/
def pt (h : Fin 2) : Fin cfg0.N := ⟨h.val, by have h8 : cfg0.N = 8 := N_0; have := h.isLt; omega⟩
/-- The half of the temporal table point `t` works on. -/
def half (t : Fin cfg0.N) : Fin 2 := ⟨t.val % 2, Nat.mod_lt _ (by decide)⟩

/-- Half `h`'s position encoding as the body computes it at point `h`: the payload of the scratch store over that
    point's blocks of the temporal half, the spectral table, the scale and the bias. -/
def posAt (c : Dev nD) (h : Fin 2) : FVec F S1x128x16x1024 .f32 :=
  k0_pay1 (iblk m c 0 (pt h)) (iblk m c 1 (pt h)) (iblk m c 2 (pt h)) (iblk m c 3 (pt h))

/-! ## The body's branch, and the slab of the scratch a point works on -/

/-- The body's one branch is taken exactly at the first two points. -/
theorem hcond : ∀ t : Fin cfg0.N, k0_cond1 (grid0.coords t) = 1#1 ↔ t.val < 2 :=
  (by decide +kernel : ∀ t : Fin grid0.N, k0_cond1 (grid0.coords t) = 1#1 ↔ t.val < 2)
/-- The scratch store at point `t` goes to slab `t % 2`, -/
theorem hoff1 : ∀ t : Fin cfg0.N, k0_off1 (grid0.coords t) = ![t.val % 2, 0, 0, 0] :=
  (by decide +kernel : ∀ t : Fin grid0.N, k0_off1 (grid0.coords t) = ![t.val % 2, 0, 0, 0])
/-- and the scratch load at point `t` comes from the same slab. -/
theorem hoff2 : ∀ t : Fin cfg0.N, k0_off2 (grid0.coords t) = ![t.val % 2, 0, 0, 0] :=
  (by decide +kernel : ∀ t : Fin grid0.N, k0_off2 (grid0.coords t) = ![t.val % 2, 0, 0, 0])

/-- The whole-block rectangle of a rank-4 block, however its zero offsets are spelt. -/
theorem hz4 : (![0, 0, 0, 0] : Fin 4 → ℕ) = fun _ => 0 := by
  funext a; match a with | ⟨0, _⟩ => rfl | ⟨1, _⟩ => rfl | ⟨2, _⟩ => rfl | ⟨3, _⟩ => rfl
theorem hz3 : (![0, 0, 0] : Fin 3 → ℕ) = fun _ => 0 := by
  funext a; match a with | ⟨0, _⟩ => rfl | ⟨1, _⟩ => rfl | ⟨2, _⟩ => rfl
theorem hz2 : (![0, 0] : Fin 2 → ℕ) = fun _ => 0 := by
  funext a; match a with | ⟨0, _⟩ => rfl | ⟨1, _⟩ => rfl

/-! ## The body's two runs -/

set_option maxHeartbeats 1000000 in
/-- AT A POINT THAT DOES NOT STORE THE SCRATCH (points 2 to 7): with the inputs' buffers at `x0 … x4` and the scratch at `S`,
    the body leaves the inputs and the scratch as they were and the output buffer at the activations' block plus the
    scratch's slab. -/
theorem runLater (c : Dev nD) (i : grid0.Coords) (arg1 : Memref sig .tc .vmem S1x128x1024 .f32) (harg1 : arg1.IsWhole) (arg2 : Memref sig .tc .vmem S16x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x128x16x1024 .f32) (harg5 : arg5.IsWhole) (arg6 : Memref sig .tc .vmem S1x128x16x1024 .f32) (harg6 : arg6.IsWhole) (arg7 : Memref sig .tc .vmem S2x128x16x1024 .f32) (harg7 : arg7.IsWhole) (hc0 : ¬k0_cond1 i = 1#1)
    (x0 : Vec F S1x128x1024 .f32) (x1 : Vec F S16x1024 .f32) (x2 : Vec F S1x1024 .f32) (x3 : Vec F S1x1024 .f32) (x4 : Vec F S1x128x16x1024 .f32)
    (S : Vec F S2x128x16x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare S
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare (k0_pay2 x4 (View.ld S (Rect.unit (s := S2x128x16x1024) (k0_off2 i) S1x128x16x1024.size (k0_off2_inb i))))
                ∗ owns (c : Thread nD τ) arg7 fullShare S) -∗ K ⟨⟩))
          ⊢ wp frame (wpE (defs₀ (F := F)) Variants.none c none) E (cc0__body i arg1 harg1 arg2 harg2 arg3 harg3 arg4 harg4 arg5 harg5 arg6 harg6 arg7 harg7) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      rw [View.read_writes_eq_canon _ _ _ (fun y => ⟨_, List.mem_singleton_self _, View.mem_set_unit_zero hz4 inb_S1x128x16x1024_S1x128x16x1024_0_0_0_0 y⟩),
        View.canon_unit_zero hz4]
      simp only [View.readAt_eq_ld, harg5.read_unread, harg7.read_unread, View.ld_unit_zero (S := S1x128x16x1024) hz4]
    iexists _; isplitr; · ipureintro; exact harg7.read_unread _
    iexact HS0

set_option maxHeartbeats 1000000 in
/-- AT A POINT THAT STORES THE SCRATCH (points 0 and 1): the body computes its half's encoding `k0_pay1 x0 x1 x2 x3`, stores it into
    the scratch's slab, reads the slab back and leaves the output buffer at the activations' block plus that encoding;
    the scratch ends at its old contents with the slab overwritten. -/
theorem runFirst (c : Dev nD) (i : grid0.Coords) (arg1 : Memref sig .tc .vmem S1x128x1024 .f32) (harg1 : arg1.IsWhole) (arg2 : Memref sig .tc .vmem S16x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x128x16x1024 .f32) (harg5 : arg5.IsWhole) (arg6 : Memref sig .tc .vmem S1x128x16x1024 .f32) (harg6 : arg6.IsWhole) (arg7 : Memref sig .tc .vmem S2x128x16x1024 .f32) (harg7 : arg7.IsWhole) (hc0 : k0_cond1 i = 1#1)
    (x0 : Vec F S1x128x1024 .f32) (x1 : Vec F S16x1024 .f32) (x2 : Vec F S1x1024 .f32) (x3 : Vec F S1x1024 .f32) (x4 : Vec F S1x128x16x1024 .f32)
    (S : Vec F S2x128x16x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare S
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare (k0_pay2 x4 (k0_pay1 x0 x1 x2 x3))
                ∗ owns (c : Thread nD τ) arg7 fullShare (arg7.view.read (Elt F) (arg7.view.writes (Elt F) (harg7.unread S)
                    [⟨Rect.unit (s := S2x128x16x1024) (k0_off1 i) S1x128x16x1024.size (k0_off1_inb i hc0), k0_pay1 x0 x1 x2 x3⟩]))) -∗ K ⟨⟩))
          ⊢ wp frame (wpE (defs₀ (F := F)) Variants.none c none) E (cc0__body i arg1 harg1 arg2 harg2 arg3 harg3 arg4 harg4 arg5 harg5 arg6 harg6 arg7 harg7) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hfs0
    sl_exec (disch := first | exact hc0)
    sl_step
    sl_unfold_words
    simp only [View.readAt_eq_ld, harg1.read_unread, harg2.read_unread, harg3.read_unread, harg4.read_unread, harg5.read_unread,
      View.ld_unit_zero (S := S1x128x1024) hz3, View.ld_unit_zero (S := S16x1024) hz2, View.ld_unit_zero (S := S1x1024) hz2,
      View.ld_unit_zero (S := S1x128x16x1024) hz4]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      rw [View.read_writes_eq_canon _ _ _ (fun y => ⟨_, List.mem_singleton_self _, View.mem_set_unit_zero hz4 inb_S1x128x16x1024_S1x128x16x1024_0_0_0_0 y⟩),
        View.canon_unit_zero hz4]
      exact congrArg (k0_pay2 x4) (View.readCov_cons_toLoadRect _ _ _ _)
    iexists _; isplitr; swap; · iexact HS0
    ipureintro; rfl

/-! ## The scratch's slabs: a slab read back after a store through a slab rectangle -/

section Slabs
variable {sig' : RefSig} {κ : Kind} {sp : Space} {s : Shape} {e : EltTy} {Val : EltTy → Type}

/-- A load through the rectangle the newest store went through reads that store's value. -/
theorem ld_writes_unit_same (v : View sig' κ sp s e) (f : v.ty.Contents Val) {off off' size : Fin s.rank → ℕ}
    (inb : ∀ a, off a + size a ≤ s.size a) (inb' : ∀ a, off' a + size a ≤ s.size a)
    (w : (Rect.unit off size inb).shape.Idx → Val e) (h : off = off') :
    View.ld (v.read Val (v.writes Val f [⟨Rect.unit off size inb, w⟩])) (Rect.unit off' size inb') = w := by
  subst h
  funext x
  exact View.read_writes_cons_unit_of_mem v f inb w [] _ x rfl (fun a => by
    show off a + 1 * (x a).val = off a + (x a).val
    rw [Nat.one_mul])

/-- A load through a rectangle of the same sizes that the newest store misses on axis `a` reads what was there before. -/
theorem ld_writes_unit_other (v : View sig' κ sp s e) (f : v.ty.Contents Val) {off off' size : Fin s.rank → ℕ}
    (inb : ∀ a, off a + size a ≤ s.size a) (inb' : ∀ a, off' a + size a ≤ s.size a)
    (w : (Rect.unit off size inb).shape.Idx → Val e) (a : Fin s.rank)
    (ha : off' a + size a ≤ off a ∨ off a + size a ≤ off' a) :
    View.ld (v.read Val (v.writes Val f [⟨Rect.unit off size inb, w⟩])) (Rect.unit off' size inb')
      = View.ld (v.read Val f) (Rect.unit off' size inb') := by
  funext x
  refine (View.read_writes_cons_unit_of_not_mem v f inb w [] _ rfl a ?_).trans rfl
  have hx : (((Rect.unit off' size inb').idx x) a).val = off' a + 1 * (x a).val := rfl
  have hlt : (x a).val < size a := (x a).isLt
  rw [hx, Nat.one_mul]
  omega

end Slabs

/-! ## The staging memrefs at a point, the scratch, and the class's invariant opened -/

abbrev ms0_0 (t : Fin cfg0.N) : Memref sig .tc .vmem S1x128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x16x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x16x1024 .f32 := win0_5.stage (cfg0.slots t 5)
abbrev hs0_5 (t : Fin cfg0.N) : (ms0_5 t).IsWhole := hstage0_5 ((cfg0.slots t 5).cast nbuf0_5)
/-- The scratch: a whole scoped buffer of the kernel's own, two slabs of [128, 16, 1024]. -/
abbrev scM0_0 : Memref sig .tc .vmem S2x128x16x1024 .f32 := Memref.whole cc0_scratch0
abbrev hsc : scM0_0.IsWhole := Memref.isWhole_whole _

/-- What the launch hands the body besides the windows: the scratch at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- No window is idle at any point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

/-! ## The invariant: what the scratch holds between points -/

/-- What is known of the scratch's contents `S` once points `0 … n` have run: for each half `hh ≤ n`, slab `hh` — read
    through the slab rectangle, however its offsets `![hh, 0, 0, 0]` are spelt — holds half `hh`'s encoding. -/
def slabInv (c : Dev nD) (n : ℕ) (S : Vec F S2x128x16x1024 .f32) : Prop :=
  ∀ hh : Fin 2, hh.val ≤ n → ∀ (off : Fin 4 → ℕ) (inb : ∀ a, off a + S1x128x16x1024.size a ≤ S2x128x16x1024.size a),
    off = ![hh.val, 0, 0, 0] →
      View.ld S (Rect.unit (s := S2x128x16x1024) off S1x128x16x1024.size inb) = posAt m c hh

/-- The region's invariant before position `n`: before the first point what the launch hands over (the scratch at
    anything); afterwards the scratch at some contents of which `slabInv` holds, and the generator register. -/
def PhiS (c : Dev nD) : (n : ℕ) → n ≤ cfg0.N → sProp 𝕄
  | 0, _ => Pipeline.ΦA spec0 c
  | n + 1, _ => iprop(∃ S : Vec F S2x128x16x1024 .f32, ⌜slabInv m c n S⌝ ∗ owns (c : Thread nD τ) scM0_0 fullShare S ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(∃ S : Vec F S2x128x16x1024 .f32, ⌜slabInv m c n S⌝ ∗ owns (c : Thread nD τ) scM0_0 fullShare S ∗ (∃ r, prngReg c r)) := rfl
theorem PhiS_pos (c : Dev nD) (n : ℕ) (h : n ≤ cfg0.N) (hz : n ≠ 0) :
    PhiS m c n h = iprop(∃ S : Vec F S2x128x16x1024 .f32, ⌜slabInv m c (n - 1) S⌝ ∗ owns (c : Thread nD τ) scM0_0 fullShare S ∗ (∃ r, prngReg c r)) := by
  cases n with
  | zero => exact absurd rfl hz
  | succ n => rfl

/-- After a point that stores the scratch: the stored slab holds this point's encoding, and (at point 1) slab 0 still
    holds what point 0 stored. -/
theorem slabInv_first (c : Dev nD) (t : Fin cfg0.N) (h2 : t.val < 2) (S : Vec F S2x128x16x1024 .f32)
    (hS : t.val = 0 ∨ slabInv m c (t.val - 1) S) :
    slabInv m c t.val (scM0_0.view.read (Elt F) (scM0_0.view.writes (Elt F) (hsc.unread S)
      [⟨Rect.unit (s := S2x128x16x1024) (k0_off1 (grid0.coords t)) S1x128x16x1024.size (k0_off1_inb (grid0.coords t) ((hcond t).mpr h2)),
        k0_pay1 (iblk m c 0 t) (iblk m c 1 t) (iblk m c 2 t) (iblk m c 3 t)⟩])) := by
  intro hh hle off inb hoff
  by_cases heq : hh.val = t.val
  · have hpt : pt hh = t := Fin.ext heq
    rw [ld_writes_unit_same _ _ _ inb _ ((hoff1 t).trans (by rw [hoff, heq, Nat.mod_eq_of_lt h2]))]
    unfold posAt; rw [hpt]
  · have ht1 : t.val = 1 := by have := hh.isLt; omega
    have hh0 : hh.val = 0 := by have := hh.isLt; omega
    have ho1 : k0_off1 (grid0.coords t) 0 = 1 := by rw [hoff1 t, ht1]; rfl
    have ho0 : off 0 = 0 := by rw [hoff, hh0]; rfl
    have hsz : S1x128x16x1024.size 0 = 1 := rfl
    rw [ld_writes_unit_other _ _ _ inb _ (0 : Fin 4) (Or.inl (by rw [ho0, ho1, hsz])), hsc.read_unread]
    rcases hS with h0 | hS
    · omega
    · exact hS hh (by omega) off inb hoff

/-! ## The pipeline's proof data -/

/-- The proof data of the one pipeline on core `c`: the arrays as the region finds them; after the body at point `t`
    each input's buffer at its block and the output's at the activations' block plus half `t % 2`'s encoding; the
    invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (iblk m c 4 t) (posAt m c (half t))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = k0_pay2 (iblk m c 4 t) (posAt m c (half t)) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. The inputs' buffers hold their blocks. At points 0 and 1 the invariant hands over the scratch
    (at anything at point 0; at point 1 with slab 0 known), the body stores its half's encoding into slab `t`, and the
    invariant takes the scratch back with that slab known too; the output is the activations' block plus this point's
    own encoding, which is half `t % 2`'s because `t % 2 = t` there. At the later points the invariant knows both
    slabs, the body reads slab `t % 2` — half `t % 2`'s encoding — and leaves the scratch as it was. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  have hN : t.val < 8 := lt_of_lt_of_eq t.isLt (show cfg0.N = 8 from N_0)
  by_cases h2 : t.val < 2
  · have hpt : pt (half t) = t := Fin.ext (Nat.mod_eq_of_lt h2)
    have hpos : posAt m c (half t) = k0_pay1 (iblk m c 0 t) (iblk m c 1 t) (iblk m c 2 t) (iblk m c 3 t) := by
      unfold posAt; rw [hpt]
    rw [hpos]
    by_cases hz : t.val = 0
    · rw [PhiS_castSucc m c t, PhiS_zero m c _ _ hz, PhiA0_eq]
      iintro ⟨⟨⟨%S, HS0⟩, Hg⟩, Ho, ⟨%d0, H0⟩, ⟨%d1, H1⟩, ⟨%d2, H2⟩, ⟨%d3, H3⟩, ⟨%d4, H4⟩, ⟨%d5, H5⟩⟩
      iapply (runFirst c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc ((hcond t).mpr h2) (iblk m c 0 t) (iblk m c 1 t) (iblk m c 2 t) (iblk m c 3 t) (iblk m c 4 t) S Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 Hg]
      · iexists _; isplitr; · ipureintro; exact slabInv_first m c t h2 S (Or.inl hz)
        isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc m c t, PhiS_pos m c _ _ hz]
      iintro ⟨⟨%S, %hS, HS0, Hg⟩, Ho, ⟨%d0, H0⟩, ⟨%d1, H1⟩, ⟨%d2, H2⟩, ⟨%d3, H3⟩, ⟨%d4, H4⟩, ⟨%d5, H5⟩⟩
      iapply (runFirst c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc ((hcond t).mpr h2) (iblk m c 0 t) (iblk m c 1 t) (iblk m c 2 t) (iblk m c 3 t) (iblk m c 4 t) S Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 Hg]
      · iexists _; isplitr; · ipureintro; exact slabInv_first m c t h2 S (Or.inr hS)
        isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := by omega
    rw [PhiS_castSucc m c t, PhiS_pos m c _ _ hz]
    iintro ⟨⟨%S, %hS, HS0, Hg⟩, Ho, ⟨%d0, H0⟩, ⟨%d1, H1⟩, ⟨%d2, H2⟩, ⟨%d3, H3⟩, ⟨%d4, H4⟩, ⟨%d5, H5⟩⟩
    have hslab : View.ld S (Rect.unit (s := S2x128x16x1024) (k0_off2 (grid0.coords t)) S1x128x16x1024.size (k0_off2_inb (grid0.coords t)))
        = posAt m c (half t) :=
      hS (half t) (by have := (half t).isLt; omega) _ _ (hoff2 t)
    iapply (runLater c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc (fun h => h2 ((hcond t).mp h)) (iblk m c 0 t) (iblk m c 1 t) (iblk m c 2 t) (iblk m c 3 t) (iblk m c 4 t) S Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    rw [hslab]
    iintro ⟨H0, H1, H2, H3, H4, H5, HS0⟩
    isplitl [HS0 Hg]
    · iexists _; isplitr; · ipureintro; exact fun hh _ => hS hh (by have := hh.isLt; omega)
      isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives back what the launch handed over: what the scratch holds is forgotten. -/
theorem hout (c : Dev nD) : (dats m 0 c).Φ (Fin.last cfg0.N) ⊢ Pipeline.ΦA spec0 c := by
  have hne : (Fin.last cfg0.N).val ≠ 0 := by rw [Fin.val_last]; have : cfg0.N = 8 := N_0; omega
  rw [show (dats m 0 c).Φ (Fin.last cfg0.N) = PhiS m c (Fin.last cfg0.N).val (Nat.le_of_lt_succ (Fin.last cfg0.N).isLt) from rfl,
    PhiS_pos m c _ _ hne, PhiA0_eq]
  iintro ⟨%S, -, HS0, Hg⟩
  isplitl [HS0]
  · iexists _; iexact HS0
  iexact Hg

/-! ## The run and the frame -/

set_option backward.isDefEq.respectTransparency.types false in
/-- Every weakly fair execution of @main terminates, and every final state has every array of the pipeline at what the
    library computes from the proof data and every other unscoped buffer as the line after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.KernelIdealBody.lean ====
/-
  The kernel's frame and what it leaves in its output, for any float instance.

  The grid has 8 points. Point `t` works on slab `t` of the activations (128 temporal rows × 16 spectral rows ×
  1024 features) and on half `t % 2` of the temporal table. At points 0 and 1 the body first computes the position
  encoding of its half — the layer norm of (temporal row + spectral row), scaled and shifted — and keeps it in slab
  `t % 2` of a scratch buffer; at every point it adds slab `t % 2` of the scratch to the activations' slab. So the
  scratch is carried between points: after point 0 its slab 0 holds half 0's encoding, after point 1 also slab 1
  holds half 1's, and the output block of point `t` is the activations' block plus half `t % 2`'s encoding.
-/
import proofs.«137637_g22428319220377_cont_9to1_50_16_alg».proof.Proof.Gen.KernelIdeal.Frame
import proofs.«137637_g22428319220377_cont_9to1_50_16_alg».proof.Proof.Gen.KernelIdeal.Skeleton
import Idealize.ShloMosaic.Lib.Pipeline.Value
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point numbered `h`, for `h` one of the two halves. -/
def pt (h : Fin 2) : Fin cfg0.N := ⟨h.val, by have h8 : cfg0.N = 8 := N_0; have := h.isLt; omega⟩
/-- The half of the temporal table point `t` works on. -/
def half (t : Fin cfg0.N) : Fin 2 := ⟨t.val % 2, Nat.mod_lt _ (by decide)⟩

/-- Half `h`'s position encoding as the body computes it at point `h`: the payload of the scratch store over that
    point's blocks of the temporal half, the spectral table, the scale and the bias. -/
def posAt (c : Dev nD) (h : Fin 2) : FVec F S1x128x16x1024 .f32 :=
  k0_pay1 (iblk m c 0 (pt h)) (iblk m c 1 (pt h)) (iblk m c 2 (pt h)) (iblk m c 3 (pt h))

/-! ## The body's branch, and the slab of the scratch a point works on -/

/-- The body's one branch is taken exactly at the first two points. -/
theorem hcond : ∀ t : Fin cfg0.N, k0_cond1 (grid0.coords t) = 1#1 ↔ t.val < 2 :=
  (by decide +kernel : ∀ t : Fin grid0.N, k0_cond1 (grid0.coords t) = 1#1 ↔ t.val < 2)
/-- The scratch store at point `t` goes to slab `t % 2`, -/
theorem hoff1 : ∀ t : Fin cfg0.N, k0_off1 (grid0.coords t) = ![t.val % 2, 0, 0, 0] :=
  (by decide +kernel : ∀ t : Fin grid0.N, k0_off1 (grid0.coords t) = ![t.val % 2, 0, 0, 0])
/-- and the scratch load at point `t` comes from the same slab. -/
theorem hoff2 : ∀ t : Fin cfg0.N, k0_off2 (grid0.coords t) = ![t.val % 2, 0, 0, 0] :=
  (by decide +kernel : ∀ t : Fin grid0.N, k0_off2 (grid0.coords t) = ![t.val % 2, 0, 0, 0])

/-- The whole-block rectangle of a rank-4 block, however its zero offsets are spelt. -/
theorem hz4 : (![0, 0, 0, 0] : Fin 4 → ℕ) = fun _ => 0 := by
  funext a; match a with | ⟨0, _⟩ => rfl | ⟨1, _⟩ => rfl | ⟨2, _⟩ => rfl | ⟨3, _⟩ => rfl
theorem hz3 : (![0, 0, 0] : Fin 3 → ℕ) = fun _ => 0 := by
  funext a; match a with | ⟨0, _⟩ => rfl | ⟨1, _⟩ => rfl | ⟨2, _⟩ => rfl
theorem hz2 : (![0, 0] : Fin 2 → ℕ) = fun _ => 0 := by
  funext a; match a with | ⟨0, _⟩ => rfl | ⟨1, _⟩ => rfl

/-! ## The body's two runs -/

set_option maxHeartbeats 1000000 in
/-- AT A POINT THAT DOES NOT STORE THE SCRATCH (points 2 to 7): with the inputs' buffers at `x0 … x4` and the scratch at `S`,
    the body leaves the inputs and the scratch as they were and the output buffer at the activations' block plus the
    scratch's slab. -/
theorem runLater (c : Dev nD) (i : grid0.Coords) (arg1 : Memref sig .tc .vmem S1x128x1024 .f32) (harg1 : arg1.IsWhole) (arg2 : Memref sig .tc .vmem S16x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x128x16x1024 .f32) (harg5 : arg5.IsWhole) (arg6 : Memref sig .tc .vmem S1x128x16x1024 .f32) (harg6 : arg6.IsWhole) (arg7 : Memref sig .tc .vmem S2x128x16x1024 .f32) (harg7 : arg7.IsWhole) (hc0 : ¬k0_cond1 i = 1#1)
    (x0 : Vec F S1x128x1024 .f32) (x1 : Vec F S16x1024 .f32) (x2 : Vec F S1x1024 .f32) (x3 : Vec F S1x1024 .f32) (x4 : Vec F S1x128x16x1024 .f32)
    (S : Vec F S2x128x16x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare S
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare (k0_pay2 x4 (View.ld S (Rect.unit (s := S2x128x16x1024) (k0_off2 i) S1x128x16x1024.size (k0_off2_inb i))))
                ∗ owns (c : Thread nD τ) arg7 fullShare S) -∗ K ⟨⟩))
          ⊢ wp frame (wpE (defs₀ (F := F)) Variants.none c none) E (cc0__body i arg1 harg1 arg2 harg2 arg3 harg3 arg4 harg4 arg5 harg5 arg6 harg6 arg7 harg7) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      rw [View.read_writes_eq_canon _ _ _ (fun y => ⟨_, List.mem_singleton_self _, View.mem_set_unit_zero hz4 inb_S1x128x16x1024_S1x128x16x1024_0_0_0_0 y⟩),
        View.canon_unit_zero hz4]
      simp only [View.readAt_eq_ld, harg5.read_unread, harg7.read_unread, View.ld_unit_zero (S := S1x128x16x1024) hz4]
    iexists _; isplitr; · ipureintro; exact harg7.read_unread _
    iexact HS0

set_option maxHeartbeats 1000000 in
/-- AT A POINT THAT STORES THE SCRATCH (points 0 and 1): the body computes its half's encoding `k0_pay1 x0 x1 x2 x3`, stores it into
    the scratch's slab, reads the slab back and leaves the output buffer at the activations' block plus that encoding;
    the scratch ends at its old contents with the slab overwritten. -/
theorem runFirst (c : Dev nD) (i : grid0.Coords) (arg1 : Memref sig .tc .vmem S1x128x1024 .f32) (harg1 : arg1.IsWhole) (arg2 : Memref sig .tc .vmem S16x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x128x16x1024 .f32) (harg5 : arg5.IsWhole) (arg6 : Memref sig .tc .vmem S1x128x16x1024 .f32) (harg6 : arg6.IsWhole) (arg7 : Memref sig .tc .vmem S2x128x16x1024 .f32) (harg7 : arg7.IsWhole) (hc0 : k0_cond1 i = 1#1)
    (x0 : Vec F S1x128x1024 .f32) (x1 : Vec F S16x1024 .f32) (x2 : Vec F S1x1024 .f32) (x3 : Vec F S1x1024 .f32) (x4 : Vec F S1x128x16x1024 .f32)
    (S : Vec F S2x128x16x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare S
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare (k0_pay2 x4 (k0_pay1 x0 x1 x2 x3))
                ∗ owns (c : Thread nD τ) arg7 fullShare (arg7.view.read (Elt F) (arg7.view.writes (Elt F) (harg7.unread S)
                    [⟨Rect.unit (s := S2x128x16x1024) (k0_off1 i) S1x128x16x1024.size (k0_off1_inb i hc0), k0_pay1 x0 x1 x2 x3⟩]))) -∗ K ⟨⟩))
          ⊢ wp frame (wpE (defs₀ (F := F)) Variants.none c none) E (cc0__body i arg1 harg1 arg2 harg2 arg3 harg3 arg4 harg4 arg5 harg5 arg6 harg6 arg7 harg7) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hfs0
    sl_exec (disch := first | exact hc0)
    sl_step
    sl_unfold_words
    simp only [View.readAt_eq_ld, harg1.read_unread, harg2.read_unread, harg3.read_unread, harg4.read_unread, harg5.read_unread,
      View.ld_unit_zero (S := S1x128x1024) hz3, View.ld_unit_zero (S := S16x1024) hz2, View.ld_unit_zero (S := S1x1024) hz2,
      View.ld_unit_zero (S := S1x128x16x1024) hz4]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      rw [View.read_writes_eq_canon _ _ _ (fun y => ⟨_, List.mem_singleton_self _, View.mem_set_unit_zero hz4 inb_S1x128x16x1024_S1x128x16x1024_0_0_0_0 y⟩),
        View.canon_unit_zero hz4]
      exact congrArg (k0_pay2 x4) (View.readCov_cons_toLoadRect _ _ _ _)
    iexists _; isplitr; swap; · iexact HS0
    ipureintro; rfl

/-! ## The scratch's slabs: a slab read back after a store through a slab rectangle -/

section Slabs
variable {sig' : RefSig} {κ : Kind} {sp : Space} {s : Shape} {e : EltTy} {Val : EltTy → Type}

/-- A load through the rectangle the newest store went through reads that store's value. -/
theorem ld_writes_unit_same (v : View sig' κ sp s e) (f : v.ty.Contents Val) {off off' size : Fin s.rank → ℕ}
    (inb : ∀ a, off a + size a ≤ s.size a) (inb' : ∀ a, off' a + size a ≤ s.size a)
    (w : (Rect.unit off size inb).shape.Idx → Val e) (h : off = off') :
    View.ld (v.read Val (v.writes Val f [⟨Rect.unit off size inb, w⟩])) (Rect.unit off' size inb') = w := by
  subst h
  funext x
  exact View.read_writes_cons_unit_of_mem v f inb w [] _ x rfl (fun a => by
    show off a + 1 * (x a).val = off a + (x a).val
    rw [Nat.one_mul])

/-- A load through a rectangle of the same sizes that the newest store misses on axis `a` reads what was there before. -/
theorem ld_writes_unit_other (v : View sig' κ sp s e) (f : v.ty.Contents Val) {off off' size : Fin s.rank → ℕ}
    (inb : ∀ a, off a + size a ≤ s.size a) (inb' : ∀ a, off' a + size a ≤ s.size a)
    (w : (Rect.unit off size inb).shape.Idx → Val e) (a : Fin s.rank)
    (ha : off' a + size a ≤ off a ∨ off a + size a ≤ off' a) :
    View.ld (v.read Val (v.writes Val f [⟨Rect.unit off size inb, w⟩])) (Rect.unit off' size inb')
      = View.ld (v.read Val f) (Rect.unit off' size inb') := by
  funext x
  refine (View.read_writes_cons_unit_of_not_mem v f inb w [] _ rfl a ?_).trans rfl
  have hx : (((Rect.unit off' size inb').idx x) a).val = off' a + 1 * (x a).val := rfl
  have hlt : (x a).val < size a := (x a).isLt
  rw [hx, Nat.one_mul]
  omega

end Slabs

/-! ## The staging memrefs at a point, the scratch, and the class's invariant opened -/

abbrev ms0_0 (t : Fin cfg0.N) : Memref sig .tc .vmem S1x128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x16x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x16x1024 .f32 := win0_5.stage (cfg0.slots t 5)
abbrev hs0_5 (t : Fin cfg0.N) : (ms0_5 t).IsWhole := hstage0_5 ((cfg0.slots t 5).cast nbuf0_5)
/-- The scratch: a whole scoped buffer of the kernel's own, two slabs of [128, 16, 1024]. -/
abbrev scM0_0 : Memref sig .tc .vmem S2x128x16x1024 .f32 := Memref.whole cc0_scratch0
abbrev hsc : scM0_0.IsWhole := Memref.isWhole_whole _

/-- What the launch hands the body besides the windows: the scratch at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- No window is idle at any point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

/-! ## The invariant: what the scratch holds between points -/

/-- What is known of the scratch's contents `S` once points `0 … n` have run: for each half `hh ≤ n`, slab `hh` — read
    through the slab rectangle, however its offsets `![hh, 0, 0, 0]` are spelt — holds half `hh`'s encoding. -/
def slabInv (c : Dev nD) (n : ℕ) (S : Vec F S2x128x16x1024 .f32) : Prop :=
  ∀ hh : Fin 2, hh.val ≤ n → ∀ (off : Fin 4 → ℕ) (inb : ∀ a, off a + S1x128x16x1024.size a ≤ S2x128x16x1024.size a),
    off = ![hh.val, 0, 0, 0] →
      View.ld S (Rect.unit (s := S2x128x16x1024) off S1x128x16x1024.size inb) = posAt m c hh

/-- The region's invariant before position `n`: before the first point what the launch hands over (the scratch at
    anything); afterwards the scratch at some contents of which `slabInv` holds, and the generator register. -/
def PhiS (c : Dev nD) : (n : ℕ) → n ≤ cfg0.N → sProp 𝕄
  | 0, _ => Pipeline.ΦA spec0 c
  | n + 1, _ => iprop(∃ S : Vec F S2x128x16x1024 .f32, ⌜slabInv m c n S⌝ ∗ owns (c : Thread nD τ) scM0_0 fullShare S ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(∃ S : Vec F S2x128x16x1024 .f32, ⌜slabInv m c n S⌝ ∗ owns (c : Thread nD τ) scM0_0 fullShare S ∗ (∃ r, prngReg c r)) := rfl
theorem PhiS_pos (c : Dev nD) (n : ℕ) (h : n ≤ cfg0.N) (hz : n ≠ 0) :
    PhiS m c n h = iprop(∃ S : Vec F S2x128x16x1024 .f32, ⌜slabInv m c (n - 1) S⌝ ∗ owns (c : Thread nD τ) scM0_0 fullShare S ∗ (∃ r, prngReg c r)) := by
  cases n with
  | zero => exact absurd rfl hz
  | succ n => rfl

/-- After a point that stores the scratch: the stored slab holds this point's encoding, and (at point 1) slab 0 still
    holds what point 0 stored. -/
theorem slabInv_first (c : Dev nD) (t : Fin cfg0.N) (h2 : t.val < 2) (S : Vec F S2x128x16x1024 .f32)
    (hS : t.val = 0 ∨ slabInv m c (t.val - 1) S) :
    slabInv m c t.val (scM0_0.view.read (Elt F) (scM0_0.view.writes (Elt F) (hsc.unread S)
      [⟨Rect.unit (s := S2x128x16x1024) (k0_off1 (grid0.coords t)) S1x128x16x1024.size (k0_off1_inb (grid0.coords t) ((hcond t).mpr h2)),
        k0_pay1 (iblk m c 0 t) (iblk m c 1 t) (iblk m c 2 t) (iblk m c 3 t)⟩])) := by
  intro hh hle off inb hoff
  by_cases heq : hh.val = t.val
  · have hpt : pt hh = t := Fin.ext heq
    rw [ld_writes_unit_same _ _ _ inb _ ((hoff1 t).trans (by rw [hoff, heq, Nat.mod_eq_of_lt h2]))]
    unfold posAt; rw [hpt]
  · have ht1 : t.val = 1 := by have := hh.isLt; omega
    have hh0 : hh.val = 0 := by have := hh.isLt; omega
    have ho1 : k0_off1 (grid0.coords t) 0 = 1 := by rw [hoff1 t, ht1]; rfl
    have ho0 : off 0 = 0 := by rw [hoff, hh0]; rfl
    have hsz : S1x128x16x1024.size 0 = 1 := rfl
    rw [ld_writes_unit_other _ _ _ inb _ (0 : Fin 4) (Or.inl (by rw [ho0, ho1, hsz])), hsc.read_unread]
    rcases hS with h0 | hS
    · omega
    · exact hS hh (by omega) off inb hoff

/-! ## The pipeline's proof data -/

/-- The proof data of the one pipeline on core `c`: the arrays as the region finds them; after the body at point `t`
    each input's buffer at its block and the output's at the activations' block plus half `t % 2`'s encoding; the
    invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (iblk m c 4 t) (posAt m c (half t))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = k0_pay2 (iblk m c 4 t) (posAt m c (half t)) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. The inputs' buffers hold their blocks. At points 0 and 1 the invariant hands over the scratch
    (at anything at point 0; at point 1 with slab 0 known), the body stores its half's encoding into slab `t`, and the
    invariant takes the scratch back with that slab known too; the output is the activations' block plus this point's
    own encoding, which is half `t % 2`'s because `t % 2 = t` there. At the later points the invariant knows both
    slabs, the body reads slab `t % 2` — half `t % 2`'s encoding — and leaves the scratch as it was. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  have hN : t.val < 8 := lt_of_lt_of_eq t.isLt (show cfg0.N = 8 from N_0)
  by_cases h2 : t.val < 2
  · have hpt : pt (half t) = t := Fin.ext (Nat.mod_eq_of_lt h2)
    have hpos : posAt m c (half t) = k0_pay1 (iblk m c 0 t) (iblk m c 1 t) (iblk m c 2 t) (iblk m c 3 t) := by
      unfold posAt; rw [hpt]
    rw [hpos]
    by_cases hz : t.val = 0
    · rw [PhiS_castSucc m c t, PhiS_zero m c _ _ hz, PhiA0_eq]
      iintro ⟨⟨⟨%S, HS0⟩, Hg⟩, Ho, ⟨%d0, H0⟩, ⟨%d1, H1⟩, ⟨%d2, H2⟩, ⟨%d3, H3⟩, ⟨%d4, H4⟩, ⟨%d5, H5⟩⟩
      iapply (runFirst c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc ((hcond t).mpr h2) (iblk m c 0 t) (iblk m c 1 t) (iblk m c 2 t) (iblk m c 3 t) (iblk m c 4 t) S Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 Hg]
      · iexists _; isplitr; · ipureintro; exact slabInv_first m c t h2 S (Or.inl hz)
        isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc m c t, PhiS_pos m c _ _ hz]
      iintro ⟨⟨%S, %hS, HS0, Hg⟩, Ho, ⟨%d0, H0⟩, ⟨%d1, H1⟩, ⟨%d2, H2⟩, ⟨%d3, H3⟩, ⟨%d4, H4⟩, ⟨%d5, H5⟩⟩
      iapply (runFirst c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc ((hcond t).mpr h2) (iblk m c 0 t) (iblk m c 1 t) (iblk m c 2 t) (iblk m c 3 t) (iblk m c 4 t) S Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 Hg]
      · iexists _; isplitr; · ipureintro; exact slabInv_first m c t h2 S (Or.inr hS)
        isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := by omega
    rw [PhiS_castSucc m c t, PhiS_pos m c _ _ hz]
    iintro ⟨⟨%S, %hS, HS0, Hg⟩, Ho, ⟨%d0, H0⟩, ⟨%d1, H1⟩, ⟨%d2, H2⟩, ⟨%d3, H3⟩, ⟨%d4, H4⟩, ⟨%d5, H5⟩⟩
    have hslab : View.ld S (Rect.unit (s := S2x128x16x1024) (k0_off2 (grid0.coords t)) S1x128x16x1024.size (k0_off2_inb (grid0.coords t)))
        = posAt m c (half t) :=
      hS (half t) (by have := (half t).isLt; omega) _ _ (hoff2 t)
    iapply (runLater c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc (fun h => h2 ((hcond t).mp h)) (iblk m c 0 t) (iblk m c 1 t) (iblk m c 2 t) (iblk m c 3 t) (iblk m c 4 t) S Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    rw [hslab]
    iintro ⟨H0, H1, H2, H3, H4, H5, HS0⟩
    isplitl [HS0 Hg]
    · iexists _; isplitr; · ipureintro; exact fun hh _ => hS hh (by have := hh.isLt; omega)
      isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives back what the launch handed over: what the scratch holds is forgotten. -/
theorem hout (c : Dev nD) : (dats m 0 c).Φ (Fin.last cfg0.N) ⊢ Pipeline.ΦA spec0 c := by
  have hne : (Fin.last cfg0.N).val ≠ 0 := by rw [Fin.val_last]; have : cfg0.N = 8 := N_0; omega
  rw [show (dats m 0 c).Φ (Fin.last cfg0.N) = PhiS m c (Fin.last cfg0.N).val (Nat.le_of_lt_succ (Fin.last cfg0.N).isLt) from rfl,
    PhiS_pos m c _ _ hne, PhiA0_eq]
  iintro ⟨%S, -, HS0, Hg⟩
  isplitl [HS0]
  · iexists _; iexact HS0
  iexact Hg

/-! ## The run and the frame -/

set_option backward.isDefEq.respectTransparency.types false in
/-- Every weakly fair execution of @main terminates, and every final state has every array of the pipeline at what the
    library computes from the proof data and every other unscoped buffer as the line after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.PosEncodeSpec.lean ====
/-
  The mathematics both programs compute, index by index, on the extended reals.

  Token `n` of the 4096 has temporal id `n / 16` and spectral id `n % 16`. Its pre-normalisation row is
  `p h = te[n / 16, h] + se[n % 16, h]`; the layer norm takes the row's mean `μ = (Σ_h p h) / 1024`, centres it,
  `c h = p h − μ`, takes the variance `v = (Σ_h (c h)²) / 1024` and returns `c h · rsqrt(v + ε) · g[h] + b[h]`;
  the result adds that to the input at every batch. The two float literals (1024 and ε) stay the words both
  programs print: the same word on both sides is never evaluated.
-/
import Idealize.ShloMosaic.PureOps.Ideal
import Idealize.ShloMosaic.Lib.ValueIdx

noncomputable section

open scoped BigOperators

namespace PosEncode

open Idealize.ShloMosaic Idealize.ShloMosaic.ValueIdx

/-- The activations: batch 4, one group, 4096 tokens, 1024 features. -/
abbrev SX : Shape := ⟨4, ![4, 1, 4096, 1024]⟩
/-- The temporal table: 256 ids. -/
abbrev ST : Shape := ⟨2, ![256, 1024]⟩
/-- The spectral table: 16 ids. -/
abbrev SS : Shape := ⟨2, ![16, 1024]⟩
/-- The layer norm's scale and bias. -/
abbrev SH : Shape := ⟨1, ![1024]⟩

/-- The feature count as both programs print it: the f32 word of 1024. -/
def width : EReal := Ideal.ofBits .f32 0x44800000#32
/-- The layer norm's ε as both programs print it. -/
def eps : EReal := Ideal.ofBits .f32 0x358637BD#32

/-- The mean of a row of 1024 features. -/
def rowMean (p : Fin 1024 → EReal) : EReal := Ideal.div (∑ h : Fin 1024, p h) width
/-- The variance of a row: the mean of its centred squares. -/
def rowVar (p : Fin 1024 → EReal) : EReal :=
  Ideal.div (∑ h : Fin 1024, (p h - rowMean p) * (p h - rowMean p)) width
/-- THE LAYER NORM of a row at feature `h`, with that feature's scale `gh` and bias `bh`:
    `(p h − μ) · rsqrt(v + ε) · gh + bh`. -/
def lnRow (p : Fin 1024 → EReal) (gh bh : EReal) (h : Fin 1024) : EReal :=
  (p h - rowMean p) * Ideal.rsqrt (rowVar p + eps) * gh + bh

section
variable (te : ST.Idx → EReal) (se : SS.Idx → EReal) (g b : SH.Idx → EReal)

/-- The row before normalisation: temporal row `tt` plus spectral row `ss`. -/
def row (tt : Fin 256) (ss : Fin 16) (h : Fin 1024) : EReal := te (ix2 tt h) + se (ix2 ss h)
/-- The position encoding of (temporal id, spectral id) at feature `h`: that row's layer norm. -/
def pos (tt : Fin 256) (ss : Fin 16) (h : Fin 1024) : EReal :=
  lnRow (row te se tt ss) (g (ix1 h)) (b (ix1 h)) h

/-- Token `n`'s temporal id. -/
def tid (n : Fin 4096) : Fin 256 := ⟨n.val / 16, by have := n.isLt; omega⟩
/-- Token `n`'s spectral id. -/
def sid (n : Fin 4096) : Fin 16 := ⟨n.val % 16, by omega⟩

/-- THE RESULT: the input plus its token's position encoding, the same at every batch. -/
def G (x : SX.Idx → EReal) : SX.Idx → EReal :=
  fun i => x i + pos te se g b (tid (i 2)) (sid (i 2)) (i 3)

end

end PosEncode

end
-- ==== Proof.KernelPayload.lean ====
/-
  The kernel body's two stored values read at one element, on the extended reals.
-/
import proofs.«137637_g22428319220377_cont_9to1_50_16_alg».proof.Proof.Gen.KernelIdeal.Skeleton
import proofs.«137637_g22428319220377_cont_9to1_50_16_alg».proof.Proof.PosEncodeSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen

/-! ## Layout operations of rank 3 read at an index given by coordinates -/

section Layout
variable {α : Type}

/-- An `[a, c]` array cast to `[a, 1, c]` reads, at `(i, u, k)`, the operand at `(i, k)`: both indices sit at the
    row-major position `i · c + k`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[1, 1, a]` reads, at `(u, v, i)`, the operand at `i`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv, Nat.zero_mul, Nat.zero_add])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Layout

/-- The sum over the last axis of an `[a, b, c]` array of extended reals, read at `(i, j)`: the sum over `k` of the
    array at `(i, j, k)`. -/
theorem laneSum_apply {a b c : ℕ} (src : FVec Ideal ⟨3, ![a, b, c]⟩ .f32)
    (h : (⟨3, ![a, b, c]⟩ : Shape).Reduces [2] ⟨2, ![a, b]⟩) (i : Fin a) (j : Fin b) :
    multiReduction (F := Ideal) .add [2] ⟨2, ![a, b]⟩ src 0x00000000#32 h (.inl rfl) rfl (ix2 i j)
      = ∑ k : Fin c, src (ix3 i j k) := by
  refine (Ideal.multiReduction_add_single src 0x00000000#32 h (.inl rfl) rfl (ix2 i j)).trans ?_
  refine Finset.sum_congr rfl fun k _ => congrArg src ?_
  funext ax
  match ax with
  | ⟨0, _⟩ => exact Fin.ext rfl
  | ⟨1, _⟩ => exact Fin.ext rfl
  | ⟨2, _⟩ => exact Fin.ext rfl

/-! ## The stages of the scratch's value -/

/-- The temporal block's rows laid under every spectral row and the spectral block's rows laid under every temporal
    row, added. -/
def rows (x0 : Vec Ideal S1x128x1024 .f32) (x1 : Vec Ideal S16x1024 .f32) : FVec Ideal S128x16x1024 .f32 :=
  addf
    (broadcastTo S128x16x1024
      (shapeCast S128x1x1024 (shapeCast S128x1024 x0 shapeCasts_S1x128x1024_S128x1024) shapeCasts_S128x1024_S128x1x1024)
      broadcasts_S128x1x1024_S128x16x1024)
    (broadcastTo S128x16x1024 (shapeCast S1x16x1024 x1 shapeCasts_S16x1024_S1x16x1024) broadcasts_S1x16x1024_S128x16x1024)

/-- The lane sum of a block divided by the feature count, kept as a column. -/
def meanCol (v : FVec Ideal S128x16x1024 .f32) : FVec Ideal S128x16x1 .f32 :=
  divf
    (shapeCast S128x16x1
      (multiReduction (F := Ideal) .add [2] S128x16 v 0x00000000#32 reduces_S128x16x1024_S128x16 (.inl rfl) rfl)
      shapeCasts_S128x16_S128x16x1)
    (broadcast S128x16x1 (Scalar.ofBits (F := Ideal) .f32 0x44800000#32))

/-- A block less its mean column. -/
def centred (v : FVec Ideal S128x16x1024 .f32) : FVec Ideal S128x16x1024 .f32 :=
  subf v (broadcastTo S128x16x1024 (meanCol v) broadcasts_S128x16x1_S128x16x1024)

/-- The reciprocal root of the variance column plus ε. -/
def rstdCol (v : FVec Ideal S128x16x1024 .f32) : FVec Ideal S128x16x1 .f32 :=
  rsqrt (addf (meanCol (mulf (centred v) (centred v))) (broadcast S128x16x1 (Scalar.ofBits (F := Ideal) .f32 0x358637BD#32)))

/-- A row of features laid under every temporal and spectral row. -/
def featRow (g : Vec Ideal S1x1024 .f32) : FVec Ideal S128x16x1024 .f32 :=
  broadcastTo S128x16x1024 (shapeCast S1x1x1024 (shapeCast S1024 g shapeCasts_S1x1024_S1024) shapeCasts_S1024_S1x1x1024)
    broadcasts_S1x1x1024_S128x16x1024

/-- The scratch's value is these stages, put together as the body does. -/
theorem pay1_eq (x0 : Vec Ideal S1x128x1024 .f32) (x1 : Vec Ideal S16x1024 .f32) (x2 x3 : Vec Ideal S1x1024 .f32) :
    k0_pay1 (F := Ideal) x0 x1 x2 x3
      = shapeCast S1x128x16x1024
          (shapeCast S1x128x16x1024
            (addf (mulf (mulf (centred (rows x0 x1)) (broadcastTo S128x16x1024 (rstdCol (rows x0 x1)) broadcasts_S128x16x1_S128x16x1024))
              (featRow x2)) (featRow x3))
            shapeCasts_S128x16x1024_S1x128x16x1024)
          shapeCasts_S1x128x16x1024_S1x128x16x1024 := rfl

/-! ## Each stage read at an index -/

/-- The added rows at `(r, s, h')`: the temporal row `r` plus the spectral row `s`, at feature `h'`. -/
theorem rows_apply (x0 : Vec Ideal S1x128x1024 .f32) (x1 : Vec Ideal S16x1024 .f32) (r : Fin 128) (s : Fin 16) (h' : Fin 1024) :
    rows x0 x1 (ix3 r s h') = x0 (ix3 (0 : Fin 1) r h') + x1 (ix2 s h') := by
  have e0 : broadcastTo S128x16x1024
        (shapeCast S128x1x1024 (shapeCast S128x1024 x0 shapeCasts_S1x128x1024_S128x1024) shapeCasts_S128x1024_S128x1x1024)
        broadcasts_S128x1x1024_S128x16x1024 (ix3 r s h') = x0 (ix3 (0 : Fin 1) r h') :=
    (broadcastTo_a1c_abc_apply _ _ r s h').trans
      ((shapeCast_ac_a1c_apply _ _ r (0 : Fin 1) h').trans (shapeCast_1ab_ab_apply x0 _ r h'))
  have e1 : broadcastTo S128x16x1024 (shapeCast S1x16x1024 x1 shapeCasts_S16x1024_S1x16x1024)
        broadcasts_S1x16x1024_S128x16x1024 (ix3 r s h') = x1 (ix2 s h') :=
    (broadcastTo_1bc_abc_apply _ _ r s h').trans (shapeCast_ab_1ab_apply x1 _ (0 : Fin 1) s h')
  exact congrArg₂ (· + ·) e0 e1

/-- The mean column at `(r, s, 0)`: the sum of the block's row `(r, s)` over the features, divided by the feature count. -/
theorem meanCol_apply (v : FVec Ideal S128x16x1024 .f32) (r : Fin 128) (s : Fin 16) (u : Fin 1) :
    meanCol v (ix3 r s u) = Ideal.div (∑ k : Fin 1024, v (ix3 r s k)) PosEncode.width := by
  have e : shapeCast S128x16x1
        (multiReduction (F := Ideal) .add [2] S128x16 v 0x00000000#32 reduces_S128x16x1024_S128x16 (.inl rfl) rfl)
        shapeCasts_S128x16_S128x16x1 (ix3 r s u) = ∑ k : Fin 1024, v (ix3 r s k) :=
    (shapeCast_ab_ab1_apply _ _ r s u).trans (laneSum_apply v _ r s)
  exact congrArg (Ideal.div · PosEncode.width) e

/-- A centred block at `(r, s, k)`: the element less its row's mean. -/
theorem centred_apply (v : FVec Ideal S128x16x1024 .f32) (r : Fin 128) (s : Fin 16) (k : Fin 1024) :
    centred v (ix3 r s k) = v (ix3 r s k) - Ideal.div (∑ k' : Fin 1024, v (ix3 r s k')) PosEncode.width :=
  congrArg (v (ix3 r s k) - ·) ((broadcastTo_ab1_abc_apply _ _ r s k).trans (meanCol_apply v r s (0 : Fin 1)))

/-- The reciprocal-root column at `(r, s, 0)`: of the mean of the row's centred squares, plus ε. -/
theorem rstdCol_apply (v : FVec Ideal S128x16x1024 .f32) (r : Fin 128) (s : Fin 16) (u : Fin 1) :
    rstdCol v (ix3 r s u)
      = Ideal.rsqrt (Ideal.div (∑ k : Fin 1024, centred v (ix3 r s k) * centred v (ix3 r s k)) PosEncode.width + PosEncode.eps) :=
  congrArg (fun t => Ideal.rsqrt (t + PosEncode.eps)) (meanCol_apply (mulf (centred v) (centred v)) r s u)

/-- A feature row laid under every `(r, s)`, at `(r, s, h)`: the row at `h`. -/
theorem featRow_apply (g : Vec Ideal S1x1024 .f32) (r : Fin 128) (s : Fin 16) (h : Fin 1024) :
    featRow g (ix3 r s h) = g (ix2 (0 : Fin 1) h) :=
  (broadcastTo_11c_abc_apply _ _ r s h).trans
    ((shapeCast_a_11a_apply _ _ (0 : Fin 1) (0 : Fin 1) h).trans (shapeCast_1a_a_apply g _ h))

/-- The value kept in the scratch, at temporal row `r`, spectral row `s`, feature `h`: the layer norm of the row
    `h' ↦ x0[0, r, h'] + x1[s, h']`, with the scale `x2[0, h]` and the bias `x3[0, h]`. -/
theorem pay1_apply (x0 : Vec Ideal S1x128x1024 .f32) (x1 : Vec Ideal S16x1024 .f32) (x2 x3 : Vec Ideal S1x1024 .f32)
    (r : Fin 128) (s : Fin 16) (h : Fin 1024) :
    k0_pay1 (F := Ideal) x0 x1 x2 x3 (ix4 (0 : Fin 1) r s h)
      = PosEncode.lnRow (fun h' => x0 (ix3 (0 : Fin 1) r h') + x1 (ix2 s h')) (x2 (ix2 (0 : Fin 1) h)) (x3 (ix2 (0 : Fin 1) h)) h := by
  -- the row the layer norm is taken of
  have hrow : ∀ k : Fin 1024, rows x0 x1 (ix3 r s k) = (fun h' => x0 (ix3 (0 : Fin 1) r h') + x1 (ix2 s h')) k :=
    fun k => rows_apply x0 x1 r s k
  -- its centred form is the spec's
  have hc : ∀ k : Fin 1024, centred (rows x0 x1) (ix3 r s k)
      = (fun h' => x0 (ix3 (0 : Fin 1) r h') + x1 (ix2 s h')) k
          - PosEncode.rowMean (fun h' => x0 (ix3 (0 : Fin 1) r h') + x1 (ix2 s h')) := fun k =>
    (centred_apply (rows x0 x1) r s k).trans
      (congrArg₂ (fun a b => a - Ideal.div b PosEncode.width) (hrow k) (Finset.sum_congr rfl fun k' _ => hrow k'))
  -- and so is the reciprocal root
  have hr : rstdCol (rows x0 x1) (ix3 r s (0 : Fin 1))
      = Ideal.rsqrt (PosEncode.rowVar (fun h' => x0 (ix3 (0 : Fin 1) r h') + x1 (ix2 s h')) + PosEncode.eps) :=
    (rstdCol_apply (rows x0 x1) r s (0 : Fin 1)).trans
      (congrArg (fun t => Ideal.rsqrt (Ideal.div t PosEncode.width + PosEncode.eps))
        (Finset.sum_congr rfl fun k _ => congrArg₂ (· * ·) (hc k) (hc k)))
  refine (congrFun (pay1_eq x0 x1 x2 x3) _).trans ?_
  refine (congrFun (shapeCast_self _ shapeCasts_S1x128x16x1024_S1x128x16x1024) _).trans ?_
  refine (shapeCast_abc_1abc_apply _ _ (0 : Fin 1) r s h).trans ?_
  have hb := (broadcastTo_ab1_abc_apply (rstdCol (rows x0 x1)) broadcasts_S128x16x1_S128x16x1024 r s h).trans hr
  exact congrArg₂ (· + ·)
    (congrArg₂ (· * ·) (congrArg₂ (· * ·) (hc h) hb) (featRow_apply x2 r s h)) (featRow_apply x3 r s h)

/-- The value stored to the output: the activations' block plus the scratch's slab, element by element. -/
theorem pay2_apply (v4 v7 : Vec Ideal S1x128x16x1024 .f32) (j : S1x128x16x1024.Idx) :
    k0_pay2 (F := Ideal) v4 v7 j = v4 j + v7 j := by
  unfold k0_pay2
  exact congrArg (· j + v7 j) (shapeCast_self v4 shapeCasts_S1x128x16x1024_S1x128x16x1024)

end Cert.KernelIdeal.Payload

end
-- ==== Proof.KernelValue.lean ====
/-
  The idealized kernel's result array, as one function of its argument arrays.
-/
import proofs.«137637_g22428319220377_cont_9to1_50_16_alg».proof.Proof.KernelIdealBody
import proofs.«137637_g22428319220377_cont_9to1_50_16_alg».proof.Proof.KernelPayload
import proofs.«137637_g22428319220377_cont_9to1_50_16_alg».proof.Proof.PosEncodeSpec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KValue

open Idealize.ShloMosaic Idealize.ShloMosaic.ValueIdx Idealize.SL.Sem
open Cert.KernelIdeal Cert.KernelIdeal.Gen Cert.KernelIdeal.Body

section
variable (m : (ℓ : Loc nD τ sig) → Buf (Elt Ideal) ℓ)

/-- The activations as launched: batch 4, one group, 4096 tokens, 1024 features. -/
abbrev xarr (c : Dev nD) : S4x1x4096x1024.Idx → EReal := m ((c.tc : Thread nD τ).loc main_arg0)
/-- The temporal table as launched: 256 ids. -/
abbrev tarr (c : Dev nD) : S256x1024.Idx → EReal := m ((c.tc : Thread nD τ).loc main_arg1)
/-- The spectral table as launched: 16 ids. -/
abbrev sarr (c : Dev nD) : S16x1024.Idx → EReal := m ((c.tc : Thread nD τ).loc main_arg2)
/-- The layer norm's scale as launched. -/
abbrev garr (c : Dev nD) : S1024.Idx → EReal := m ((c.tc : Thread nD τ).loc main_arg3)
/-- The layer norm's bias as launched. -/
abbrev barr (c : Dev nD) : S1024.Idx → EReal := m ((c.tc : Thread nD τ).loc main_arg4)

end

section
variable (m : (ℓ : Loc nD τ sig) → Buf (Elt Ideal) ℓ)

/-! ## The arrays the region finds: each a row-major re-laying of an argument -/

/-- The activations as the region finds them: the argument cut into 8 slabs of 128 × 16 tokens. -/
theorem V_v0 (c : Dev nD) :
    (V m c main_v0 : S8x128x16x1024.Idx → EReal)
      = shapeCast S8x128x16x1024 (xarr m c)
          shapeCasts_S4x1x4096x1024_S8x128x16x1024 := by
  dsimp only [Gen.V, Gen.V0]
  simp only [Gen.hostOps0, List.flatten_cons, List.flatten_nil, List.append_nil, List.cons_append, List.nil_append]
  after_results
  rfl

/-- The temporal table as the region finds it: the argument's 256 rows as two halves of 128. -/
theorem V_v1 (c : Dev nD) :
    (V m c main_v1 : S2x128x1024.Idx → EReal)
      = shapeCast S2x128x1024 (tarr m c)
          shapeCasts_S256x1024_S2x128x1024 := by
  dsimp only [Gen.V, Gen.V0]
  simp only [Gen.hostOps0, List.flatten_cons, List.flatten_nil, List.append_nil, List.cons_append, List.nil_append]
  after_results
  rfl

/-- The scale as the region finds it: the argument as one row. -/
theorem V_v2 (c : Dev nD) :
    (V m c main_v2 : S1x1024.Idx → EReal)
      = shapeCast S1x1024 (garr m c) shapeCasts_S1024_S1x1024 := by
  dsimp only [Gen.V, Gen.V0]
  simp only [Gen.hostOps0, List.flatten_cons, List.flatten_nil, List.append_nil, List.cons_append, List.nil_append]
  after_results
  rfl

/-- The bias as the region finds it: the argument as one row. -/
theorem V_v3 (c : Dev nD) :
    (V m c main_v3 : S1x1024.Idx → EReal)
      = shapeCast S1x1024 (barr m c) shapeCasts_S1024_S1x1024 := by
  dsimp only [Gen.V, Gen.V0]
  simp only [Gen.hostOps0, List.flatten_cons, List.flatten_nil, List.append_nil, List.cons_append, List.nil_append]
  after_results
  rfl

end

section
variable (m : (ℓ : Loc nD τ sig) → Buf (Elt Ideal) ℓ)

/-- Slab `t`, temporal row `r`, spectral row `s` of the activations is token `(t % 2)·2048 + r·16 + s` of batch
    `t / 2`: both sit at row-major position `t·2048 + r·16 + s` among the rows of 1024 features. -/
theorem V_v0_apply (c : Dev nD) (t : Fin 8) (r : Fin 128) (s : Fin 16) (h : Fin 1024) (b : Fin 4) (n : Fin 4096)
    (hb : b.val = t.val / 2) (hn : n.val = (t.val % 2) * 2048 + r.val * 16 + s.val) :
    (V m c main_v0 : S8x128x16x1024.Idx → EReal) (ix4 t r s h)
      = xarr m c (ix4 b (0 : Fin 1) n h) := by
  rw [V_v0]
  refine shapeCast_apply _ _ _ _ ?_
  show (S4x1x4096x1024.rowMajor (ix4 b (0 : Fin 1) n h)).val = (S8x128x16x1024.rowMajor (ix4 t r s h)).val
  rw [Shape.rowMajor_val_four, Shape.rowMajor_val_four]
  show ((b.val * 1 + 0) * 4096 + n.val) * 1024 + h.val = ((t.val * 128 + r.val) * 16 + s.val) * 1024 + h.val
  have := t.isLt
  omega

/-- Row `r` of half `hh` of the temporal table is row `hh·128 + r` of the argument. -/
theorem V_v1_apply (c : Dev nD) (hh : Fin 2) (r : Fin 128) (h : Fin 1024) (k : Fin 256) (hk : k.val = hh.val * 128 + r.val) :
    (V m c main_v1 : S2x128x1024.Idx → EReal) (ix3 hh r h)
      = tarr m c (ix2 k h) := by
  rw [V_v1]
  refine shapeCast_apply _ _ _ _ ?_
  show (S256x1024.rowMajor (ix2 k h)).val = (S2x128x1024.rowMajor (ix3 hh r h)).val
  rw [Shape.rowMajor_val_two, Shape.rowMajor_val_three]
  show k.val * 1024 + h.val = (hh.val * 128 + r.val) * 1024 + h.val
  omega

/-- The scale's one row is the argument. -/
theorem V_v2_apply (c : Dev nD) (h : Fin 1024) :
    (V m c main_v2 : S1x1024.Idx → EReal) (ix2 (0 : Fin 1) h)
      = garr m c (ix1 h) := by
  rw [V_v2]
  refine shapeCast_apply _ _ _ _ ?_
  show (S1024.rowMajor (ix1 h)).val = (S1x1024.rowMajor (ix2 (0 : Fin 1) h)).val
  rw [Shape.rowMajor_val_one, Shape.rowMajor_val_two]
  show h.val = 0 * 1024 + h.val
  omega

/-- The bias's one row is the argument. -/
theorem V_v3_apply (c : Dev nD) (h : Fin 1024) :
    (V m c main_v3 : S1x1024.Idx → EReal) (ix2 (0 : Fin 1) h)
      = barr m c (ix1 h) := by
  rw [V_v3]
  refine shapeCast_apply _ _ _ _ ?_
  show (S1024.rowMajor (ix1 h)).val = (S1x1024.rowMajor (ix2 (0 : Fin 1) h)).val
  rw [Shape.rowMajor_val_one, Shape.rowMajor_val_two]
  show h.val = 0 * 1024 + h.val
  omega

end

/-! ## The blocks a point works on -/

/-- The printed index maps over the grid: at point `t` the temporal table's block is half `t % 2`, the activations'
    and the output's block is slab `t`, and the spectral table, the scale and the bias are staged whole. -/
theorem idx_facts : ∀ t : Fin cfg0.N,
    win0_0.index t (0 : Fin 3) = t.val % 2 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 4) = t.val ∧ win0_4.index t (1 : Fin 4) = 0 ∧ win0_4.index t (2 : Fin 4) = 0 ∧ win0_4.index t (3 : Fin 4) = 0
    ∧ win0_5.index t (0 : Fin 4) = t.val ∧ win0_5.index t (1 : Fin 4) = 0 ∧ win0_5.index t (2 : Fin 4) = 0 ∧ win0_5.index t (3 : Fin 4) = 0 :=
  (by decide +kernel : ∀ t : Fin grid0.N, _)

section
variable (m : (ℓ : Loc nD τ sig) → Buf (Elt Ideal) ℓ)

/-- The temporal table's block at point `t` is its half `t % 2`. -/
theorem tblk_apply (c : Dev nD) (t : Fin cfg0.N) (r : Fin 128) (h : Fin 1024) (hh : Fin 2) (e : hh.val = t.val % 2) :
    (iblk m c 0 t : Vec Ideal S1x128x1024 .f32) (ix3 (0 : Fin 1) r h)
      = (V m c main_v1 : S2x128x1024.Idx → EReal) (ix3 hh r h) := by
  obtain ⟨e0, e1, e2, -⟩ := idx_facts t
  unfold iblk
  rw [View.read_apply]
  show V m c main_v1 _ = V m c main_v1 _
  congr 1
  funext a
  apply Fin.ext
  match a with
  | ⟨0, _⟩ => show win0_0.index t (0 : Fin 3) * 1 + 1 * 0 = hh.val; rw [e0, e]; omega
  | ⟨1, _⟩ => show win0_0.index t (1 : Fin 3) * 128 + 1 * r.val = r.val; rw [e1]; omega
  | ⟨2, _⟩ => show win0_0.index t (2 : Fin 3) * 1024 + 1 * h.val = h.val; rw [e2]; omega

/-- The spectral table's block is the table. -/
theorem sblk_apply (c : Dev nD) (t : Fin cfg0.N) (s : Fin 16) (h : Fin 1024) :
    (iblk m c 1 t : Vec Ideal S16x1024 .f32) (ix2 s h)
      = sarr m c (ix2 s h) := by
  obtain ⟨-, -, -, e0, e1, -⟩ := idx_facts t
  refine Eq.trans ?_ (congrFun (V_main_arg2 m c) (ix2 s h))
  unfold iblk
  rw [View.read_apply]
  show V m c main_arg2 _ = V m c main_arg2 _
  congr 1
  funext a
  apply Fin.ext
  match a with
  | ⟨0, _⟩ => show win0_1.index t (0 : Fin 2) * 16 + 1 * s.val = s.val; rw [e0]; omega
  | ⟨1, _⟩ => show win0_1.index t (1 : Fin 2) * 1024 + 1 * h.val = h.val; rw [e1]; omega

/-- The scale's block is its one row. -/
theorem gblk_apply (c : Dev nD) (t : Fin cfg0.N) (h : Fin 1024) :
    (iblk m c 2 t : Vec Ideal S1x1024 .f32) (ix2 (0 : Fin 1) h)
      = (V m c main_v2 : S1x1024.Idx → EReal) (ix2 (0 : Fin 1) h) := by
  obtain ⟨-, -, -, -, -, e0, e1, -⟩ := idx_facts t
  unfold iblk
  rw [View.read_apply]
  show V m c main_v2 _ = V m c main_v2 _
  congr 1
  funext a
  apply Fin.ext
  match a with
  | ⟨0, _⟩ => show win0_2.index t (0 : Fin 2) * 1 + 1 * 0 = 0; rw [e0]
  | ⟨1, _⟩ => show win0_2.index t (1 : Fin 2) * 1024 + 1 * h.val = h.val; rw [e1]; omega

/-- The bias's block is its one row. -/
theorem bblk_apply (c : Dev nD) (t : Fin cfg0.N) (h : Fin 1024) :
    (iblk m c 3 t : Vec Ideal S1x1024 .f32) (ix2 (0 : Fin 1) h)
      = (V m c main_v3 : S1x1024.Idx → EReal) (ix2 (0 : Fin 1) h) := by
  obtain ⟨-, -, -, -, -, -, -, e0, e1, -⟩ := idx_facts t
  unfold iblk
  rw [View.read_apply]
  show V m c main_v3 _ = V m c main_v3 _
  congr 1
  funext a
  apply Fin.ext
  match a with
  | ⟨0, _⟩ => show win0_3.index t (0 : Fin 2) * 1 + 1 * 0 = 0; rw [e0]
  | ⟨1, _⟩ => show win0_3.index t (1 : Fin 2) * 1024 + 1 * h.val = h.val; rw [e1]; omega

/-- The activations' block at point `t` is slab `t`. -/
theorem xblk_apply (c : Dev nD) (t : Fin cfg0.N) (r : Fin 128) (s : Fin 16) (h : Fin 1024) (tt : Fin 8) (e : tt.val = t.val) :
    (iblk m c 4 t : Vec Ideal S1x128x16x1024 .f32) (ix4 (0 : Fin 1) r s h)
      = (V m c main_v0 : S8x128x16x1024.Idx → EReal) (ix4 tt r s h) := by
  obtain ⟨-, -, -, -, -, -, -, -, -, e0, e1, e2, e3, -⟩ := idx_facts t
  unfold iblk
  rw [View.read_apply]
  show V m c main_v0 _ = V m c main_v0 _
  congr 1
  funext a
  apply Fin.ext
  match a with
  | ⟨0, _⟩ => show win0_4.index t (0 : Fin 4) * 1 + 1 * 0 = tt.val; rw [e0, e]; omega
  | ⟨1, _⟩ => show win0_4.index t (1 : Fin 4) * 128 + 1 * r.val = r.val; rw [e1]; omega
  | ⟨2, _⟩ => show win0_4.index t (2 : Fin 4) * 16 + 1 * s.val = s.val; rw [e2]; omega
  | ⟨3, _⟩ => show win0_4.index t (3 : Fin 4) * 1024 + 1 * h.val = h.val; rw [e3]; omega

end

/-! ## What a point leaves in its output block -/

/-- The layer norm of a row depends on the row, the scale and the bias only through their values. -/
theorem lnRow_congr {p q : Fin 1024 → EReal} {g g' b b' : EReal} (hp : ∀ h', p h' = q h') (hg : g = g') (hb : b = b')
    (h : Fin 1024) : PosEncode.lnRow p g b h = PosEncode.lnRow q g' b' h := by
  obtain rfl : p = q := funext hp
  rw [hg, hb]

/-- The batch of the activations that slab `t` lies in: two slabs to a batch. -/
def batchOf (t : Fin 8) : Fin 4 := ⟨t.val / 2, by have := t.isLt; omega⟩
/-- The token at temporal row `r`, spectral row `s` of slab `t`: slab `t` holds tokens
    `(t % 2)·2048 … (t % 2)·2048 + 2047` of its batch, 16 to a temporal row. -/
def tokenOf (t : Fin 8) (r : Fin 128) (s : Fin 16) : Fin 4096 :=
  ⟨(t.val % 2) * 2048 + r.val * 16 + s.val, by have := r.isLt; have := s.isLt; omega⟩

section
variable (m : (ℓ : Loc nD τ sig) → Buf (Elt Ideal) ℓ)

/-- Half `hh`'s position encoding as the body computes it, at temporal row `r`, spectral row `s`, feature `h`: the
    specification's encoding of temporal id `hh·128 + r` and spectral id `s`. -/
theorem posAt_apply (c : Dev nD) (hh : Fin 2) (r : Fin 128) (s : Fin 16) (h : Fin 1024) (k : Fin 256)
    (hk : k.val = hh.val * 128 + r.val) :
    (posAt m c hh : Vec Ideal S1x128x16x1024 .f32) (ix4 (0 : Fin 1) r s h)
      = PosEncode.pos (tarr m c) (sarr m c) (garr m c) (barr m c) k s h := by
  have ept : hh.val = (pt hh).val % 2 := by
    show hh.val = hh.val % 2
    have := hh.isLt
    omega
  unfold posAt
  refine (Payload.pay1_apply (iblk m c 0 (pt hh)) (iblk m c 1 (pt hh)) (iblk m c 2 (pt hh)) (iblk m c 3 (pt hh)) r s h).trans ?_
  unfold PosEncode.pos
  refine lnRow_congr (fun h' => ?_) ?_ ?_ h
  · show _ = tarr m c (ix2 k h') + sarr m c (ix2 s h')
    exact congrArg₂ (· + ·) ((tblk_apply m c (pt hh) r h' hh ept).trans (V_v1_apply m c hh r h' k hk))
      (sblk_apply m c (pt hh) s h')
  · exact (gblk_apply m c (pt hh) h).trans (V_v2_apply m c h)
  · exact (bblk_apply m c (pt hh) h).trans (V_v3_apply m c h)

/-- WHAT POINT `t` LEAVES IN ITS OUTPUT BLOCK at temporal row `r`, spectral row `s`, feature `h`: the activations
    there plus the position encoding of that token. -/
theorem outBlock_apply (c : Dev nD) (t : Fin cfg0.N) (r : Fin 128) (s : Fin 16) (h : Fin 1024) (tt : Fin 8) (et : tt.val = t.val) :
    ((dats m 0 c).after 5 t : Vec Ideal S1x128x16x1024 .f32) (ix4 (0 : Fin 1) r s h)
      = xarr m c (ix4 (batchOf tt) (0 : Fin 1) (tokenOf tt r s) h)
        + PosEncode.pos (tarr m c) (sarr m c) (garr m c) (barr m c) (PosEncode.tid (tokenOf tt r s)) (PosEncode.sid (tokenOf tt r s)) h := by
  have es : PosEncode.sid (tokenOf tt r s) = s := Fin.ext (by
    show ((tt.val % 2) * 2048 + r.val * 16 + s.val) % 16 = s.val
    have := s.isLt
    omega)
  rw [after0_5, es]
  refine (Payload.pay2_apply (iblk m c 4 t) (posAt m c (half t)) (ix4 (0 : Fin 1) r s h)).trans ?_
  exact congrArg₂ (· + ·)
    ((xblk_apply m c t r s h tt et).trans (V_v0_apply m c tt r s h (batchOf tt) (tokenOf tt r s) rfl rfl))
    (posAt_apply m c (half t) r s h (PosEncode.tid (tokenOf tt r s)) (by
      show ((tt.val % 2) * 2048 + r.val * 16 + s.val) / 16 = (t.val % 2) * 128 + r.val
      have := s.isLt
      omega))

end

/-! ## The output array, slab by slab -/

section
variable (te : PosEncode.ST.Idx → EReal) (se : PosEncode.SS.Idx → EReal) (g b : PosEncode.SH.Idx → EReal)
  (x : PosEncode.SX.Idx → EReal)

/-- The output at temporal row `r`, spectral row `s`, feature `h` of slab `t`: the activations at that token of the
    slab's batch plus the token's position encoding. -/
def slabAt (t : Fin 8) (r : Fin 128) (s : Fin 16) (h : Fin 1024) : EReal :=
  x (ix4 (batchOf t) (0 : Fin 1) (tokenOf t r s) h)
    + PosEncode.pos te se g b (PosEncode.tid (tokenOf t r s)) (PosEncode.sid (tokenOf t r s)) h

/-- The output array as the region leaves it: 8 slabs of 128 temporal rows × 16 spectral rows × 1024 features. -/
def slabs : S8x128x16x1024.Idx → EReal := fun i => slabAt te se g b x (i 0) (i 1) (i 2) (i 3)

end

section
variable (m : (ℓ : Loc nD τ sig) → Buf (Elt Ideal) ℓ)

/-- What point `t` leaves in its output block at `y` is the output array at the index `y` sits at in slab `t`. -/
theorem wrote_apply (c : Dev nD) (t : Fin cfg0.N) (y : S1x128x16x1024.Idx) (i : S8x128x16x1024.Idx)
    (h0 : (i 0).val = t.val) (h1 : (i 1).val = (y 1).val) (h2 : (i 2).val = (y 2).val) (h3 : (i 3).val = (y 3).val) :
    ((dats m 0 c).after 5 t : Vec Ideal S1x128x16x1024 .f32) y
      = slabs (tarr m c) (sarr m c) (garr m c) (barr m c) (xarr m c) i := by
  obtain ⟨y0, r, s, h, rfl⟩ : ∃ (y0 : Fin 1) (r : Fin 128) (s : Fin 16) (h : Fin 1024), y = ix4 y0 r s h :=
    ⟨y 0, y 1, y 2, y 3, eq_ix4 y⟩
  obtain rfl : y0 = 0 := Subsingleton.elim _ _
  obtain ⟨tt, r', s', h', rfl⟩ : ∃ (tt : Fin 8) (r' : Fin 128) (s' : Fin 16) (h' : Fin 1024), i = ix4 tt r' s' h' :=
    ⟨i 0, i 1, i 2, i 3, eq_ix4 i⟩
  obtain rfl : r' = r := Fin.ext h1
  obtain rfl : s' = s := Fin.ext h2
  obtain rfl : h' = h := Fin.ext h3
  exact outBlock_apply m c t r' s' h' tt h0

/-- WHAT POINT `t` WRITES BACK is block `t` of the output array. -/
theorem wrote_eq (c : Dev nD) (t : Fin cfg0.N) :
    (dats m 0 c).flushed 5 t = ((cfg0.win 5).blk t).view.read (Elt Ideal)
        (slabs (tarr m c) (sarr m c) (garr m c) (barr m c) (xarr m c)) := by
  obtain ⟨-, -, -, -, -, -, -, -, -, -, -, -, -, e0, e1, e2, e3⟩ := idx_facts t
  show (cfg0.win 5).cut (grid0.coords t) ((dats m 0 c).after 5 t) = _
  funext y
  rw [View.read_apply]
  refine wrote_apply m c t y (((cfg0.win 5).blk t).view.emb y) ?_ ?_ ?_ ?_
  · show win0_5.index t (0 : Fin 4) * 1 + 1 * (y 0).val = t.val
    have hy : (y 0).val < 1 := (y 0).isLt
    omega
  · show win0_5.index t (1 : Fin 4) * 128 + 1 * (y 1).val = (y 1).val
    omega
  · show win0_5.index t (2 : Fin 4) * 16 + 1 * (y 2).val = (y 2).val
    omega
  · show win0_5.index t (3 : Fin 4) * 1024 + 1 * (y 3).val = (y 3).val
    omega

/-- An index of the output array is in point `t`'s block iff each coordinate is in the block's range on its axis. -/
theorem mem_slab (t : Fin cfg0.N) (i : S8x128x16x1024.Idx) :
    i ∈ ((cfg0.win 5).blk t).view.set ↔ ∀ a : Fin 4, win0_5.index t a * S1x128x16x1024.size a ≤ (i a).val
      ∧ (i a).val < win0_5.index t a * S1x128x16x1024.size a + S1x128x16x1024.size a := by
  show i ∈ ((View.whole main_v4).slice (win0_5.rect t)).set ↔ _
  rw [View.set_slice_whole, Rect.mem_set_unit]
  exact Iff.rfl

/-- Every index of the output array is in some point's block: the one numbered by its slab. -/
theorem covered (i : S8x128x16x1024.Idx) :
    ∃ t : Fin cfg0.N, (cfg0.win 5).flush t = true ∧ i ∈ ((cfg0.win 5).blk t).view.set := by
  have hN : cfg0.N = 8 := N_0
  have h0 : (i 0).val < 8 := (i 0).isLt
  have h1 : (i 1).val < 128 := (i 1).isLt
  have h2 : (i 2).val < 16 := (i 2).isLt
  have h3 : (i 3).val < 1024 := (i 3).isLt
  obtain ⟨t, ht⟩ : ∃ t : Fin cfg0.N, t.val = (i 0).val := ⟨⟨(i 0).val, by omega⟩, rfl⟩
  obtain ⟨-, -, -, -, -, -, -, -, -, -, -, -, -, e0, e1, e2, e3⟩ := idx_facts t
  refine ⟨t, flush0_5 t, ?_⟩
  rw [mem_slab]
  intro a
  match a with
  | ⟨0, _⟩ =>
    show win0_5.index t (0 : Fin 4) * 1 ≤ (i 0).val ∧ (i 0).val < win0_5.index t (0 : Fin 4) * 1 + 1
    rw [e0]; omega
  | ⟨1, _⟩ =>
    show win0_5.index t (1 : Fin 4) * 128 ≤ (i 1).val ∧ (i 1).val < win0_5.index t (1 : Fin 4) * 128 + 128
    rw [e1]; omega
  | ⟨2, _⟩ =>
    show win0_5.index t (2 : Fin 4) * 16 ≤ (i 2).val ∧ (i 2).val < win0_5.index t (2 : Fin 4) * 16 + 16
    rw [e2]; omega
  | ⟨3, _⟩ =>
    show win0_5.index t (3 : Fin 4) * 1024 ≤ (i 3).val ∧ (i 3).val < win0_5.index t (3 : Fin 4) * 1024 + 1024
    rw [e3]; omega

/-- THE OUTPUT ARRAY after the region: every slab at the activations plus the position encoding. -/
theorem final (c : Dev nD) : (dats m 0 c).arrAt 5 cfg0.N
      = slabs (tarr m c) (sarr m c) (garr m c) (barr m c) (xarr m c) :=
  (dats m 0 c).arrAt_eq_of_cover 5 _ (fun t _ => wrote_eq m c t) covered

end

/-! ## The result: the slabs re-laid as batches of 4096 tokens -/

section
variable (te : PosEncode.ST.Idx → EReal) (se : PosEncode.SS.Idx → EReal) (g b : PosEncode.SH.Idx → EReal)
  (x : PosEncode.SX.Idx → EReal)

/-- The output at a slab's element, named by its batch and its token. -/
theorem slabAt_eq (t : Fin 8) (r : Fin 128) (s : Fin 16) (h : Fin 1024) (bt : Fin 4) (n : Fin 4096)
    (hb : bt.val = t.val / 2) (hn : n.val = (t.val % 2) * 2048 + r.val * 16 + s.val) :
    slabAt te se g b x t r s h
      = x (ix4 bt (0 : Fin 1) n h) + PosEncode.pos te se g b (PosEncode.tid n) (PosEncode.sid n) h := by
  obtain rfl : batchOf t = bt := Fin.ext hb.symm
  obtain rfl : tokenOf t r s = n := Fin.ext hn.symm
  rfl

/-- Token `n` of batch `bt` lies in slab `2·bt + n / 2048`, at temporal row `(n % 2048) / 16` and spectral row
    `n % 16`; read there, the slabs are the specification's result. -/
theorem slabs_relaid :
    shapeCast S4x1x4096x1024 (slabs te se g b x) shapeCasts_S8x128x16x1024_S4x1x4096x1024 = PosEncode.G te se g b x := by
  funext i
  obtain ⟨bt, z, n, h, rfl⟩ : ∃ (bt : Fin 4) (z : Fin 1) (n : Fin 4096) (h : Fin 1024), i = ix4 bt z n h :=
    ⟨i 0, i 1, i 2, i 3, eq_ix4 i⟩
  obtain rfl : z = 0 := Subsingleton.elim _ _
  have hbt := bt.isLt
  have hn := n.isLt
  refine (shapeCast_apply _ _ _ (ix4 (⟨2 * bt.val + n.val / 2048, by omega⟩ : Fin 8)
    (⟨(n.val % 2048) / 16, by omega⟩ : Fin 128) (⟨n.val % 16, by omega⟩ : Fin 16) h) ?_).trans ?_
  · show (S8x128x16x1024.rowMajor (ix4 (⟨2 * bt.val + n.val / 2048, _⟩ : Fin 8)
        (⟨(n.val % 2048) / 16, _⟩ : Fin 128) (⟨n.val % 16, _⟩ : Fin 16) h)).val
      = (S4x1x4096x1024.rowMajor (ix4 bt (0 : Fin 1) n h)).val
    rw [Shape.rowMajor_val_four, Shape.rowMajor_val_four]
    show (((2 * bt.val + n.val / 2048) * 128 + (n.val % 2048) / 16) * 16 + n.val % 16) * 1024 + h.val
      = ((bt.val * 1 + 0) * 4096 + n.val) * 1024 + h.val
    omega
  · exact slabAt_eq te se g b x _ _ _ h bt n
      (by show bt.val = (2 * bt.val + n.val / 2048) / 2; omega)
      (by show n.val = ((2 * bt.val + n.val / 2048) % 2) * 2048 + ((n.val % 2048) / 16) * 16 + n.val % 16; omega)

end

section
variable (m : (ℓ : Loc nD τ sig) → Buf (Elt Ideal) ℓ)

/-- THE RESULT ARRAY after the last host operation: the specification's function of the argument arrays. -/
theorem result_eq (c : Dev nD) :
    Pipeline.afterTail₀ cfgs (dats m) 0 (V0 m) [hostOps1] c main_v5
      = PosEncode.G (tarr m c) (sarr m c) (garr m c) (barr m c) (xarr m c) := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = slabs (tarr m c) (sarr m c) (garr m c) (barr m c) (xarr m c) :=
    (Pipeline.withArrays_arr spec0 launch0.win.arr_inj c _ _ 5).trans (final m c)
  rw [e]
  exact slabs_relaid (tarr m c) (sarr m c) (garr m c) (barr m c) (xarr m c)

end

/-- Every weakly fair execution of the idealized kernel program terminates with its result array at the
    specification's function of the argument arrays, and the argument arrays unchanged. -/
theorem value_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5)
        = PosEncode.G (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_main (F := Ideal) m ρ)
  exact ⟨((h c).2 main_v5 (Pipeline.mem_restRefs_of main_v5 (by decide) (by decide))).trans (result_eq m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).1 1).trans (((dats m 0 c).arrAt_in 1 rfl _).trans ((A_eq m c 1).trans (V_main_arg2 m c))),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩

end Cert.KernelIdeal.KValue

end
-- ==== Proof.RefTerm.lean ====
/-
  What the reference computes, as one pure term of its five argument arrays, stage by stage in the order the
  program prints its operations: the two one-hot tables (token id against an iota), the two table lookups as
  contractions with them, their sum, the row mean, the row variance (the outlined variance function with its
  guarded divisor `1024 − ddof`, `ddof = 0`, and the select on `1024 − ddof > 0`), the normalisation, the scale and
  the bias, and the sum with the input broadcast over the batch.
-/
import proofs.«137637_g22428319220377_cont_9to1_50_16_alg».proof.Proof.Gen.ReferenceIdeal

noncomputable section

namespace Cert.ReferenceIdeal.RefTerm

open Idealize.ShloMosaic Cert.ReferenceIdeal Cert.ReferenceIdeal.Facts₀ Cert.ReferenceIdeal.Facts

variable {F : FTy → Type} [FloatOps F]

/-- Token ids along the temporal axis: the row coordinate of a [256, 16] iota, flattened to the 4096 tokens. -/
def tIds : IVec S1x1x4096 32 := shapeCast S1x1x4096 (iotaInDim S256x16 32 0) shapeCasts_S256x16_S1x1x4096
/-- Token ids along the spectral axis: the column coordinate of the same iota. -/
def sIds : IVec S1x1x4096 32 := shapeCast S1x1x4096 (iotaInDim S256x16 32 1) shapeCasts_S256x16_S1x1x4096

/-- The temporal one-hot table: 1.0 where the token's temporal id is the column. -/
def tHot : FVec F S1x1x4096x256 .f32 :=
  uitofp .f32 (cmpi .eq
    (broadcastInDim S1x1x4096x256 ![0, 1, 2, 3] bcast_S1x1x4096x1_S1x1x4096x256_0_1_2_3
      (broadcastInDim S1x1x4096x1 ![0, 1, 2] bcast_S1x1x4096_S1x1x4096x1_0_1_2 tIds))
    (broadcastInDim S1x1x4096x256 ![0, 1, 2, 3] bcast_S1x1x1x256_S1x1x4096x256_0_1_2_3
      (broadcastInDim S1x1x1x256 ![3] bcast_S256_S1x1x1x256_3 (iotaInDim S256 32 0))))
/-- The spectral one-hot table. -/
def sHot : FVec F S1x1x4096x16 .f32 :=
  uitofp .f32 (cmpi .eq
    (broadcastInDim S1x1x4096x16 ![0, 1, 2, 3] bcast_S1x1x4096x1_S1x1x4096x16_0_1_2_3
      (broadcastInDim S1x1x4096x1 ![0, 1, 2] bcast_S1x1x4096_S1x1x4096x1_0_1_2 sIds))
    (broadcastInDim S1x1x4096x16 ![0, 1, 2, 3] bcast_S1x1x1x16_S1x1x4096x16_0_1_2_3
      (broadcastInDim S1x1x1x16 ![3] bcast_S16_S1x1x1x16_3 (iotaInDim S16 32 0))))

/-- The rows before normalisation: the two lookups, each a contraction of a one-hot table with its embedding. -/
def rows (te : FVec F S256x1024 .f32) (se : FVec F S16x1024 .f32) : FVec F S1x1x4096x1024 .f32 :=
  addf (Host.dotGeneral dot_S1x1x4096x256_S256x1024_S1x1x4096x1024_3_0_012_1_n_n none (tHot (F := F)) te)
    (Host.dotGeneral dot_S1x1x4096x16_S16x1024_S1x1x4096x1024_3_0_012_1_n_n none (sHot (F := F)) se)

/-- A row sum over the features, kept as a column. -/
def rowSum (p : FVec F S1x1x4096x1024 .f32) : FVec F S1x1x4096x1 .f32 :=
  broadcastInDim S1x1x4096x1 ![0, 1, 2] bcast_S1x1x4096_S1x1x4096x1_0_1_2
    (Host.reduceAdd p (constant S_ .f32 0x00000000#32) reducesTo_S1x1x4096x1024_S1x1x4096_d3 h_S_)
/-- The row mean: the sum over the literal 1024. -/
def rowMean (p : FVec F S1x1x4096x1024 .f32) : FVec F S1x1x4096x1 .f32 :=
  Host.divf (rowSum p) (broadcastInDim S1x1x4096x1 ![] bcast_S_S1x1x4096x1 (constant S_ .f32 0x44800000#32))
/-- A column spread over the features. -/
def spread (v : FVec F S1x1x4096x1 .f32) : FVec F S1x1x4096x1024 .f32 :=
  broadcastInDim S1x1x4096x1024 ![0, 1, 2, 3] bcast_S1x1x4096x1_S1x1x4096x1024_0_1_2_3 v

/-- The outlined variance's divisor: `1024 − float(ddof)` with `ddof = 0`. -/
def varDen : FVec F S_ .f32 := subf (constant S_ .f32 0x44800000#32) (sitofp .f32 (constantI S_ 32 0#32))
/-- The row variance as the outlined function computes it: the mean of the centred squares over the guarded
    divisor, selected against NaN where the divisor is not positive. -/
def rowVar (p : FVec F S1x1x4096x1024 .f32) : FVec F S1x1x4096x1 .f32 :=
  select (broadcastInDim S1x1x4096x1 ![] bcast_S_S1x1x4096x1 (cmpf .ogt (varDen (F := F)) (constant S_ .f32 0x00000000#32)))
    (Host.divf (rowSum (mulf (subf p (spread (rowMean p))) (subf p (spread (rowMean p)))))
      (broadcastInDim S1x1x4096x1 ![] bcast_S_S1x1x4096x1 (varDen (F := F))))
    (broadcastInDim S1x1x4096x1 ![] bcast_S_S1x1x4096x1 (id (constant S_ .f32 0x7FC00000#32)))

/-- The layer norm of the rows, scaled and shifted. -/
def normed (p : FVec F S1x1x4096x1024 .f32) (g b : FVec F S1024 .f32) : FVec F S1x1x4096x1024 .f32 :=
  addf
    (mulf
      (mulf (subf p (spread (rowMean p)))
        (spread (Host.rsqrt (addf (rowVar p)
          (broadcastInDim S1x1x4096x1 ![] bcast_S_S1x1x4096x1 (constant S_ .f32 0x358637BD#32))))))
      (broadcastInDim S1x1x4096x1024 ![0, 1, 2, 3] bcast_S1x1x1x1024_S1x1x4096x1024_0_1_2_3
        (broadcastInDim S1x1x1x1024 ![3] bcast_S1024_S1x1x1x1024_3 g)))
    (broadcastInDim S1x1x4096x1024 ![0, 1, 2, 3] bcast_S1x1x1x1024_S1x1x4096x1024_0_1_2_3
      (broadcastInDim S1x1x1x1024 ![3] bcast_S1024_S1x1x1x1024_3 b))

/-- THE REFERENCE'S RESULT as one term of its arguments. -/
def refTerm (x : FVec F S4x1x4096x1024 .f32) (te : FVec F S256x1024 .f32) (se : FVec F S16x1024 .f32)
    (g b : FVec F S1024 .f32) : FVec F S4x1x4096x1024 .f32 :=
  addf x (broadcastInDim S4x1x4096x1024 ![0, 1, 2, 3] bcast_S1x1x4096x1024_S4x1x4096x1024_0_1_2_3
    (normed (rows te se) g b))

end Cert.ReferenceIdeal.RefTerm

end
-- ==== Proof.RefRun.lean ====
/-
  The reference program's run: its @main is one straight line of host operations (the outlined variance and
  select functions inlined at their calls), and its result buffer ends at the composed term of the arguments.
-/
import proofs.«137637_g22428319220377_cont_9to1_50_16_alg».proof.Proof.RefTerm
import Idealize.ShloMosaic.Lib.StableHlo.Run

noncomputable section

namespace Cert.ReferenceIdeal.RefRun

open Idealize.ShloMosaic Idealize.SL.Sem Idealize.ShloMosaic.StableHlo
open Cert.ReferenceIdeal Cert.ReferenceIdeal.Facts₀ Cert.ReferenceIdeal.Facts

variable {F : FTy → Type} [FloatOps F]

/-- @main's operations in order, the two calls unfolded where they stand. The first twenty-eight are @main's own:
    the two iotas over [256, 16] flattened to the 4096 tokens, each compared against an iota along the table's rows
    and converted, the two contractions with the embedding tables, their sum, the row sum over the 1024 features
    and its quotient by the literal 1024, and the integer zero handed to the variance. Then the variance function's
    twenty over the call's buffers, its arguments the sum of the lookups and that zero: the row mean once more, the
    centred rows, their squares, the divisor `1024 − float 0`, the row sum of the squares over the divisor, the test
    `divisor > 0` and the NaN literal; and inside it the select function's three (the literal at its own type, its
    broadcast, the select of the quotient against it), the last of which writes the call's result buffer. After the
    call, @main's remaining sixteen: the centred rows, the reciprocal root of variance plus epsilon, the product,
    the scale and the shift broadcast along the rows, the broadcast over the batch and the sum with the input. -/
abbrev ops : List (HloOp τ sig (Elt F)) :=
  [ nullary main_v0 (iotaInDim S256x16 32 0),
    nullary main_v1 (iotaInDim S256x16 32 1),
    reshape main_v0 main_v2 rfl shapeCasts_S256x16_S1x1x4096,
    reshape main_v1 main_v3 rfl shapeCasts_S256x16_S1x1x4096,
    nullary main_v4 (iotaInDim S256 32 0),
    unary main_v2 main_v5 (broadcastInDim S1x1x4096x1 ![0, 1, 2] bcast_S1x1x4096_S1x1x4096x1_0_1_2 : (⟨S1x1x4096, .i32⟩ : BufTy).Contents (Elt F) → (⟨S1x1x4096x1, .i32⟩ : BufTy).Contents (Elt F)),
    unary main_v4 main_v6 (broadcastInDim S1x1x1x256 ![3] bcast_S256_S1x1x1x256_3 : (⟨S256, .i32⟩ : BufTy).Contents (Elt F) → (⟨S1x1x1x256, .i32⟩ : BufTy).Contents (Elt F)),
    unary main_v5 main_v7 (broadcastInDim S1x1x4096x256 ![0, 1, 2, 3] bcast_S1x1x4096x1_S1x1x4096x256_0_1_2_3 : (⟨S1x1x4096x1, .i32⟩ : BufTy).Contents (Elt F) → (⟨S1x1x4096x256, .i32⟩ : BufTy).Contents (Elt F)),
    unary main_v6 main_v8 (broadcastInDim S1x1x4096x256 ![0, 1, 2, 3] bcast_S1x1x1x256_S1x1x4096x256_0_1_2_3 : (⟨S1x1x1x256, .i32⟩ : BufTy).Contents (Elt F) → (⟨S1x1x4096x256, .i32⟩ : BufTy).Contents (Elt F)),
    binary main_v7 main_v8 main_v9 (cmpi .eq : (⟨S1x1x4096x256, .i32⟩ : BufTy).Contents (Elt F) → (⟨S1x1x4096x256, .i32⟩ : BufTy).Contents (Elt F) → (⟨S1x1x4096x256, .i1⟩ : BufTy).Contents (Elt F)),
    unary main_v9 main_v10 (uitofp .f32 : (⟨S1x1x4096x256, .i1⟩ : BufTy).Contents (Elt F) → (⟨S1x1x4096x256, .f32⟩ : BufTy).Contents (Elt F)),
    binary main_v10 main_arg1 main_v11 ((fun l r => Host.dotGeneral dot_S1x1x4096x256_S256x1024_S1x1x4096x1024_3_0_012_1_n_n none l r) : (⟨S1x1x4096x256, .f32⟩ : BufTy).Contents (Elt F) → (⟨S256x1024, .f32⟩ : BufTy).Contents (Elt F) → (⟨S1x1x4096x1024, .f32⟩ : BufTy).Contents (Elt F)),
    nullary main_v12 (iotaInDim S16 32 0),
    unary main_v3 main_v13 (broadcastInDim S1x1x4096x1 ![0, 1, 2] bcast_S1x1x4096_S1x1x4096x1_0_1_2 : (⟨S1x1x4096, .i32⟩ : BufTy).Contents (Elt F) → (⟨S1x1x4096x1, .i32⟩ : BufTy).Contents (Elt F)),
    unary main_v12 main_v14 (broadcastInDim S1x1x1x16 ![3] bcast_S16_S1x1x1x16_3 : (⟨S16, .i32⟩ : BufTy).Contents (Elt F) → (⟨S1x1x1x16, .i32⟩ : BufTy).Contents (Elt F)),
    unary main_v13 main_v15 (broadcastInDim S1x1x4096x16 ![0, 1, 2, 3] bcast_S1x1x4096x1_S1x1x4096x16_0_1_2_3 : (⟨S1x1x4096x1, .i32⟩ : BufTy).Contents (Elt F) → (⟨S1x1x4096x16, .i32⟩ : BufTy).Contents (Elt F)),
    unary main_v14 main_v16 (broadcastInDim S1x1x4096x16 ![0, 1, 2, 3] bcast_S1x1x1x16_S1x1x4096x16_0_1_2_3 : (⟨S1x1x1x16, .i32⟩ : BufTy).Contents (Elt F) → (⟨S1x1x4096x16, .i32⟩ : BufTy).Contents (Elt F)),
    binary main_v15 main_v16 main_v17 (cmpi .eq : (⟨S1x1x4096x16, .i32⟩ : BufTy).Contents (Elt F) → (⟨S1x1x4096x16, .i32⟩ : BufTy).Contents (Elt F) → (⟨S1x1x4096x16, .i1⟩ : BufTy).Contents (Elt F)),
    unary main_v17 main_v18 (uitofp .f32 : (⟨S1x1x4096x16, .i1⟩ : BufTy).Contents (Elt F) → (⟨S1x1x4096x16, .f32⟩ : BufTy).Contents (Elt F)),
    binary main_v18 main_arg2 main_v19 ((fun l r => Host.dotGeneral dot_S1x1x4096x16_S16x1024_S1x1x4096x1024_3_0_012_1_n_n none l r) : (⟨S1x1x4096x16, .f32⟩ : BufTy).Contents (Elt F) → (⟨S16x1024, .f32⟩ : BufTy).Contents (Elt F) → (⟨S1x1x4096x1024, .f32⟩ : BufTy).Contents (Elt F)),
    binary main_v11 main_v19 main_v20 (addf : (⟨S1x1x4096x1024, .f32⟩ : BufTy).Contents (Elt F) → (⟨S1x1x4096x1024, .f32⟩ : BufTy).Contents (Elt F) → (⟨S1x1x4096x1024, .f32⟩ : BufTy).Contents (Elt F)),
    nullary main_cst (constant S_ .f32 0x00000000#32),
    binary main_v20 main_cst main_v21 ((fun x v => Host.reduceAdd x v reducesTo_S1x1x4096x1024_S1x1x4096_d3 h_S_) : (⟨S1x1x4096x1024, .f32⟩ : BufTy).Contents (Elt F) → (⟨S_, .f32⟩ : BufTy).Contents (Elt F) → (⟨S1x1x4096, .f32⟩ : BufTy).Contents (Elt F)),
    unary main_v21 main_v22 (broadcastInDim S1x1x4096x1 ![0, 1, 2] bcast_S1x1x4096_S1x1x4096x1_0_1_2 : (⟨S1x1x4096, .f32⟩ : BufTy).Contents (Elt F) → (⟨S1x1x4096x1, .f32⟩ : BufTy).Contents (Elt F)),
    nullary main_cst_0 (constant S_ .f32 0x44800000#32),
    unary main_cst_0 main_v23 (broadcastInDim S1x1x4096x1 ![] bcast_S_S1x1x4096x1 : (⟨S_, .f32⟩ : BufTy).Contents (Elt F) → (⟨S1x1x4096x1, .f32⟩ : BufTy).Contents (Elt F)),
    binary main_v22 main_v23 main_v24 (Host.divf : (⟨S1x1x4096x1, .f32⟩ : BufTy).Contents (Elt F) → (⟨S1x1x4096x1, .f32⟩ : BufTy).Contents (Elt F) → (⟨S1x1x4096x1, .f32⟩ : BufTy).Contents (Elt F)),
    nullary main_c (constantI S_ 32 0#32),
    TRef.nullary main_call0.cst (constant S_ .f32 0x00000000#32),
    TRef.binary (.of main_v20 : TRef sig ⟨S1x1x4096x1024, .f32⟩) main_call0.cst main_call0.v0 (fun x v => Host.reduceAdd x v reducesTo_S1x1x4096x1024_S1x1x4096_d3 h_S_),
    TRef.unary main_call0.v0 main_call0.v1 (broadcastInDim S1x1x4096x1 ![0, 1, 2] bcast_S1x1x4096_S1x1x4096x1_0_1_2),
    TRef.nullary main_call0.cst_0 (constant S_ .f32 0x44800000#32),
    TRef.unary main_call0.cst_0 main_call0.v2 (broadcastInDim S1x1x4096x1 ![] bcast_S_S1x1x4096x1),
    TRef.binary main_call0.v1 main_call0.v2 main_call0.v3 Host.divf,
    TRef.unary main_call0.v3 main_call0.v4 (broadcastInDim S1x1x4096x1024 ![0, 1, 2, 3] bcast_S1x1x4096x1_S1x1x4096x1024_0_1_2_3),
    TRef.binary (.of main_v20 : TRef sig ⟨S1x1x4096x1024, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x44800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S1x1x4096x1024_S1x1x4096_d3 h_S_),
    TRef.unary main_call0.v9 main_call0.v10 (broadcastInDim S1x1x4096x1 ![0, 1, 2] bcast_S1x1x4096_S1x1x4096x1_0_1_2),
    TRef.unary main_call0.v8 main_call0.v11 (broadcastInDim S1x1x4096x1 ![] bcast_S_S1x1x4096x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1x1x4096x1 ![] bcast_S_S1x1x4096x1),
    TRef.ternary main_call0.v13 main_call0.v12 main_call0.call0.v1 main_call0.call0.v2 (fun p a b => select (broadcastInDim S1x1x4096x1 ![] bcast_S_S1x1x4096x1 p) a b),
    unary main_v24 main_v26 (broadcastInDim S1x1x4096x1024 ![0, 1, 2, 3] bcast_S1x1x4096x1_S1x1x4096x1024_0_1_2_3 : (⟨S1x1x4096x1, .f32⟩ : BufTy).Contents (Elt F) → (⟨S1x1x4096x1024, .f32⟩ : BufTy).Contents (Elt F)),
    binary main_v20 main_v26 main_v27 (subf : (⟨S1x1x4096x1024, .f32⟩ : BufTy).Contents (Elt F) → (⟨S1x1x4096x1024, .f32⟩ : BufTy).Contents (Elt F) → (⟨S1x1x4096x1024, .f32⟩ : BufTy).Contents (Elt F)),
    nullary main_cst_1 (constant S_ .f32 0x358637BD#32),
    unary main_cst_1 main_v28 (broadcastInDim S1x1x4096x1 ![] bcast_S_S1x1x4096x1 : (⟨S_, .f32⟩ : BufTy).Contents (Elt F) → (⟨S1x1x4096x1, .f32⟩ : BufTy).Contents (Elt F)),
    binary main_v25 main_v28 main_v29 (addf : (⟨S1x1x4096x1, .f32⟩ : BufTy).Contents (Elt F) → (⟨S1x1x4096x1, .f32⟩ : BufTy).Contents (Elt F) → (⟨S1x1x4096x1, .f32⟩ : BufTy).Contents (Elt F)),
    unary main_v29 main_v30 (Host.rsqrt : (⟨S1x1x4096x1, .f32⟩ : BufTy).Contents (Elt F) → (⟨S1x1x4096x1, .f32⟩ : BufTy).Contents (Elt F)),
    unary main_v30 main_v31 (broadcastInDim S1x1x4096x1024 ![0, 1, 2, 3] bcast_S1x1x4096x1_S1x1x4096x1024_0_1_2_3 : (⟨S1x1x4096x1, .f32⟩ : BufTy).Contents (Elt F) → (⟨S1x1x4096x1024, .f32⟩ : BufTy).Contents (Elt F)),
    binary main_v27 main_v31 main_v32 (mulf : (⟨S1x1x4096x1024, .f32⟩ : BufTy).Contents (Elt F) → (⟨S1x1x4096x1024, .f32⟩ : BufTy).Contents (Elt F) → (⟨S1x1x4096x1024, .f32⟩ : BufTy).Contents (Elt F)),
    unary main_arg3 main_v33 (broadcastInDim S1x1x1x1024 ![3] bcast_S1024_S1x1x1x1024_3 : (⟨S1024, .f32⟩ : BufTy).Contents (Elt F) → (⟨S1x1x1x1024, .f32⟩ : BufTy).Contents (Elt F)),
    unary main_v33 main_v34 (broadcastInDim S1x1x4096x1024 ![0, 1, 2, 3] bcast_S1x1x1x1024_S1x1x4096x1024_0_1_2_3 : (⟨S1x1x1x1024, .f32⟩ : BufTy).Contents (Elt F) → (⟨S1x1x4096x1024, .f32⟩ : BufTy).Contents (Elt F)),
    binary main_v32 main_v34 main_v35 (mulf : (⟨S1x1x4096x1024, .f32⟩ : BufTy).Contents (Elt F) → (⟨S1x1x4096x1024, .f32⟩ : BufTy).Contents (Elt F) → (⟨S1x1x4096x1024, .f32⟩ : BufTy).Contents (Elt F)),
    unary main_arg4 main_v36 (broadcastInDim S1x1x1x1024 ![3] bcast_S1024_S1x1x1x1024_3 : (⟨S1024, .f32⟩ : BufTy).Contents (Elt F) → (⟨S1x1x1x1024, .f32⟩ : BufTy).Contents (Elt F)),
    unary main_v36 main_v37 (broadcastInDim S1x1x4096x1024 ![0, 1, 2, 3] bcast_S1x1x1x1024_S1x1x4096x1024_0_1_2_3 : (⟨S1x1x1x1024, .f32⟩ : BufTy).Contents (Elt F) → (⟨S1x1x4096x1024, .f32⟩ : BufTy).Contents (Elt F)),
    binary main_v35 main_v37 main_v38 (addf : (⟨S1x1x4096x1024, .f32⟩ : BufTy).Contents (Elt F) → (⟨S1x1x4096x1024, .f32⟩ : BufTy).Contents (Elt F) → (⟨S1x1x4096x1024, .f32⟩ : BufTy).Contents (Elt F)),
    unary main_v38 main_v39 (broadcastInDim S4x1x4096x1024 ![0, 1, 2, 3] bcast_S1x1x4096x1024_S4x1x4096x1024_0_1_2_3 : (⟨S1x1x4096x1024, .f32⟩ : BufTy).Contents (Elt F) → (⟨S4x1x4096x1024, .f32⟩ : BufTy).Contents (Elt F)),
    binary main_arg0 main_v39 main_v40 (addf : (⟨S4x1x4096x1024, .f32⟩ : BufTy).Contents (Elt F) → (⟨S4x1x4096x1024, .f32⟩ : BufTy).Contents (Elt F) → (⟨S4x1x4096x1024, .f32⟩ : BufTy).Contents (Elt F)) ]

-- sixty-seven binds re-associated: the rewrite under the chain recurses once per statement
set_option maxRecDepth 2048 in
/-- @main is that straight line: the two functions' definitions unfolded at their calls and the call's records at
    their fields, both sides are one chain of host steps once sequencing is reassociated. -/
theorem main_eq (c : Dev nD) : main (F := F) c = seq ops := by
  simp only [main, fn_var.body, fn_where.body, seq, bind_assoc, pure_bind]

attribute [local irreducible] Host.reduceAdd iotaInDim broadcastInDim shapeCast in
set_option maxRecDepth 8192 in
set_option maxHeartbeats 400000 in
/-- The fold of the line at the result buffer is the composed term, by computation: the fold unrolled, each
    operation's result decides whether the buffer read is the one it writes, and the typed references' transports
    are the identity at these literal references. The reductions, broadcasts, iotas and the flattening are kept
    folded meanwhile (the contractions are the float instance's own and open no further): the equation never looks inside them, and both sides name them at the
    same arguments stage by stage. -/
theorem out_eq (V : Valuation τ sig (Elt F)) :
    after ops V (Proc.devRef .tc main_v40)
      = RefTerm.refTerm (F := F) (V (Proc.devRef .tc main_arg0)) (V (Proc.devRef .tc main_arg1))
          (V (Proc.devRef .tc main_arg2)) (V (Proc.devRef .tc main_arg3)) (V (Proc.devRef .tc main_arg4)) := by
  simp only [after_cons, after_nil]
  rfl

/-- No operation of the line writes argument 0's buffer: the fold leaves it as it was. -/
theorem arg0_eq (V : Valuation τ sig (Elt F)) :
    after ops V (Proc.devRef .tc main_arg0) = V (Proc.devRef .tc main_arg0) := by
  simp only [after_cons, after_nil]
  rfl

/-- No operation of the line writes argument 1's buffer: the fold leaves it as it was. -/
theorem arg1_eq (V : Valuation τ sig (Elt F)) :
    after ops V (Proc.devRef .tc main_arg1) = V (Proc.devRef .tc main_arg1) := by
  simp only [after_cons, after_nil]
  rfl

/-- No operation of the line writes argument 2's buffer: the fold leaves it as it was. -/
theorem arg2_eq (V : Valuation τ sig (Elt F)) :
    after ops V (Proc.devRef .tc main_arg2) = V (Proc.devRef .tc main_arg2) := by
  simp only [after_cons, after_nil]
  rfl

/-- No operation of the line writes argument 3's buffer: the fold leaves it as it was. -/
theorem arg3_eq (V : Valuation τ sig (Elt F)) :
    after ops V (Proc.devRef .tc main_arg3) = V (Proc.devRef .tc main_arg3) := by
  simp only [after_cons, after_nil]
  rfl

/-- No operation of the line writes argument 4's buffer: the fold leaves it as it was. -/
theorem arg4_eq (V : Valuation τ sig (Elt F)) :
    after ops V (Proc.devRef .tc main_arg4) = V (Proc.devRef .tc main_arg4) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  ⟨nullary_bufs_sub .., nullary_bufs_sub .., reshape_bufs_sub .., reshape_bufs_sub .., nullary_bufs_sub .., unary_bufs_sub ..,
    unary_bufs_sub .., unary_bufs_sub .., unary_bufs_sub .., binary_bufs_sub .., unary_bufs_sub .., binary_bufs_sub ..,
    nullary_bufs_sub .., unary_bufs_sub .., unary_bufs_sub .., unary_bufs_sub .., unary_bufs_sub .., binary_bufs_sub ..,
    unary_bufs_sub .., binary_bufs_sub .., binary_bufs_sub .., nullary_bufs_sub .., binary_bufs_sub .., unary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., unary_bufs_sub .., binary_bufs_sub .., nullary_bufs_sub .., binary_bufs_sub .., nullary_bufs_sub ..,
    unary_bufs_sub .., unary_bufs_sub .., ternary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    binary_bufs_sub ..⟩

/-- Every weakly fair execution of the reference terminates with its result array at `RefTerm.refTerm` of the
    argument arrays, and the argument arrays unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v40)
        = RefTerm.refTerm (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v40).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.ReferenceIdeal.RefRun

end
-- ==== Proof.RefRows.lean ====
/-
  The reference's two table lookups read at one element: a contraction with a one-hot table picks the table's row.
-/
import proofs.«137637_g22428319220377_cont_9to1_50_16_alg».proof.Proof.RefTerm
import proofs.«137637_g22428319220377_cont_9to1_50_16_alg».proof.Proof.PosEncodeSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefRows

open Idealize.ShloMosaic Idealize.ShloMosaic.ValueIdx
open Cert.ReferenceIdeal Cert.ReferenceIdeal.Facts₀ Cert.ReferenceIdeal.Facts

/-! ## The one-hot entry: the comparison bit of two small numbers, converted -/

/-- At the ideal values the converted comparison bit of two numbers below 2³² is 1 where they are equal and 0
    where they differ. -/
theorem uitofp_cmpi_eq_ofNat (a b : Nat) (ha : a < 2 ^ 32) (hb : b < 2 ^ 32) :
    (FloatOps.uitofp (F := Ideal) .f32 (IntOp.cmpi .eq (BitVec.ofNat 32 a) (BitVec.ofNat 32 b)) : EReal)
      = if a = b then 1 else 0 := by
  by_cases h : a = b
  · subst h
    rw [if_pos rfl]
    have e : IntOp.cmpi .eq (BitVec.ofNat 32 a) (BitVec.ofNat 32 a) = 1#1 := by simp [IntOp.cmpi]
    rw [e]
    show (((1#1 : BitVec 1).toNat : ℝ) : EReal) = 1
    simp
  · rw [if_neg h]
    have e : IntOp.cmpi .eq (BitVec.ofNat 32 a) (BitVec.ofNat 32 b) = 0#1 := by
      have hne : BitVec.ofNat 32 a ≠ BitVec.ofNat 32 b := by
        intro hab
        have := congrArg BitVec.toNat hab
        rw [BitVec.toNat_ofNat, BitVec.toNat_ofNat, Nat.mod_eq_of_lt ha, Nat.mod_eq_of_lt hb] at this
        exact h this
      have hb' : (BitVec.ofNat 32 a == BitVec.ofNat 32 b) = false := beq_eq_false_iff_ne.mpr hne
      show BitVec.ofBool (BitVec.ofNat 32 a == BitVec.ofNat 32 b) = 0#1
      rw [hb']
      rfl
    rw [e]
    show (((0#1 : BitVec 1).toNat : ℝ) : EReal) = 0
    simp

/-! ## The token ids -/

/-- Token `n`'s temporal id as a word: the row `n / 16` of the [256, 16] grid. -/
theorem tIds_apply (n : Fin 4096) :
    RefTerm.tIds (ix3 (0 : Fin 1) (0 : Fin 1) n) = BitVec.ofNat 32 (n.val / 16) := by
  unfold RefTerm.tIds
  refine (shapeCast_apply _ _ (ix3 (0 : Fin 1) (0 : Fin 1) n)
    (ix2 (⟨n.val / 16, by have := n.isLt; omega⟩ : Fin 256) (⟨n.val % 16, by omega⟩ : Fin 16)) ?_).trans rfl
  rw [Shape.rowMajor_val_two, Shape.rowMajor_val_three]
  show n.val / 16 * 16 + n.val % 16 = (0 * 1 + 0) * 4096 + n.val
  omega

/-- Token `n`'s spectral id as a word: the column `n % 16` of the [256, 16] grid. -/
theorem sIds_apply (n : Fin 4096) :
    RefTerm.sIds (ix3 (0 : Fin 1) (0 : Fin 1) n) = BitVec.ofNat 32 (n.val % 16) := by
  unfold RefTerm.sIds
  refine (shapeCast_apply _ _ (ix3 (0 : Fin 1) (0 : Fin 1) n)
    (ix2 (⟨n.val / 16, by have := n.isLt; omega⟩ : Fin 256) (⟨n.val % 16, by omega⟩ : Fin 16)) ?_).trans rfl
  rw [Shape.rowMajor_val_two, Shape.rowMajor_val_three]
  show n.val / 16 * 16 + n.val % 16 = (0 * 1 + 0) * 4096 + n.val
  omega

/-! ## The one-hot tables at an entry -/

/-- The temporal one-hot table at token `n`, column `k`: 1 where `n / 16 = k`, else 0. -/
theorem tHot_apply (n : Fin 4096) (k : Fin 256) :
    RefTerm.tHot (F := Ideal) (ix4 (0 : Fin 1) (0 : Fin 1) n k) = if n.val / 16 = k.val then 1 else 0 := by
  have hA : broadcastInDim S1x1x4096x256 ![0, 1, 2, 3] bcast_S1x1x4096x1_S1x1x4096x256_0_1_2_3
      (broadcastInDim S1x1x4096x1 ![0, 1, 2] bcast_S1x1x4096_S1x1x4096x1_0_1_2 RefTerm.tIds)
      (ix4 (0 : Fin 1) (0 : Fin 1) n k) = BitVec.ofNat 32 (n.val / 16) := by
    refine (broadcastInDim_apply _ _ _ (ix4 (0 : Fin 1) (0 : Fin 1) n k) (ix4 (0 : Fin 1) (0 : Fin 1) n (0 : Fin 1))
      (fun a => match a with | ⟨0, _⟩ => rfl | ⟨1, _⟩ => rfl | ⟨2, _⟩ => rfl | ⟨3, _⟩ => rfl)).trans ?_
    refine (broadcastInDim_apply _ _ _ (ix4 (0 : Fin 1) (0 : Fin 1) n (0 : Fin 1)) (ix3 (0 : Fin 1) (0 : Fin 1) n)
      (fun a => match a with | ⟨0, _⟩ => rfl | ⟨1, _⟩ => rfl | ⟨2, _⟩ => rfl)).trans ?_
    exact tIds_apply n
  have hB : broadcastInDim S1x1x4096x256 ![0, 1, 2, 3] bcast_S1x1x1x256_S1x1x4096x256_0_1_2_3
      (broadcastInDim S1x1x1x256 ![3] bcast_S256_S1x1x1x256_3 (iotaInDim S256 32 0))
      (ix4 (0 : Fin 1) (0 : Fin 1) n k) = BitVec.ofNat 32 k.val := by
    refine (broadcastInDim_apply _ _ _ (ix4 (0 : Fin 1) (0 : Fin 1) n k) (ix4 (0 : Fin 1) (0 : Fin 1) (0 : Fin 1) k)
      (fun a => match a with | ⟨0, _⟩ => rfl | ⟨1, _⟩ => rfl | ⟨2, _⟩ => rfl | ⟨3, _⟩ => rfl)).trans ?_
    refine (broadcastInDim_apply _ _ _ (ix4 (0 : Fin 1) (0 : Fin 1) (0 : Fin 1) k) (ix1 k)
      (fun a => match a with | ⟨0, _⟩ => rfl)).trans ?_
    rfl
  show (FloatOps.uitofp (F := Ideal) .f32 (IntOp.cmpi .eq
      (broadcastInDim S1x1x4096x256 ![0, 1, 2, 3] bcast_S1x1x4096x1_S1x1x4096x256_0_1_2_3
        (broadcastInDim S1x1x4096x1 ![0, 1, 2] bcast_S1x1x4096_S1x1x4096x1_0_1_2 RefTerm.tIds)
        (ix4 (0 : Fin 1) (0 : Fin 1) n k))
      (broadcastInDim S1x1x4096x256 ![0, 1, 2, 3] bcast_S1x1x1x256_S1x1x4096x256_0_1_2_3
        (broadcastInDim S1x1x1x256 ![3] bcast_S256_S1x1x1x256_3 (iotaInDim S256 32 0))
        (ix4 (0 : Fin 1) (0 : Fin 1) n k))) : EReal) = _
  rw [hA, hB]
  exact uitofp_cmpi_eq_ofNat _ _ (by have := n.isLt; omega) (by have := k.isLt; omega)

/-- The spectral one-hot table at token `n`, column `k`: 1 where `n % 16 = k`, else 0. -/
theorem sHot_apply (n : Fin 4096) (k : Fin 16) :
    RefTerm.sHot (F := Ideal) (ix4 (0 : Fin 1) (0 : Fin 1) n k) = if n.val % 16 = k.val then 1 else 0 := by
  have hA : broadcastInDim S1x1x4096x16 ![0, 1, 2, 3] bcast_S1x1x4096x1_S1x1x4096x16_0_1_2_3
      (broadcastInDim S1x1x4096x1 ![0, 1, 2] bcast_S1x1x4096_S1x1x4096x1_0_1_2 RefTerm.sIds)
      (ix4 (0 : Fin 1) (0 : Fin 1) n k) = BitVec.ofNat 32 (n.val % 16) := by
    refine (broadcastInDim_apply _ _ _ (ix4 (0 : Fin 1) (0 : Fin 1) n k) (ix4 (0 : Fin 1) (0 : Fin 1) n (0 : Fin 1))
      (fun a => match a with | ⟨0, _⟩ => rfl | ⟨1, _⟩ => rfl | ⟨2, _⟩ => rfl | ⟨3, _⟩ => rfl)).trans ?_
    refine (broadcastInDim_apply _ _ _ (ix4 (0 : Fin 1) (0 : Fin 1) n (0 : Fin 1)) (ix3 (0 : Fin 1) (0 : Fin 1) n)
      (fun a => match a with | ⟨0, _⟩ => rfl | ⟨1, _⟩ => rfl | ⟨2, _⟩ => rfl)).trans ?_
    exact sIds_apply n
  have hB : broadcastInDim S1x1x4096x16 ![0, 1, 2, 3] bcast_S1x1x1x16_S1x1x4096x16_0_1_2_3
      (broadcastInDim S1x1x1x16 ![3] bcast_S16_S1x1x1x16_3 (iotaInDim S16 32 0))
      (ix4 (0 : Fin 1) (0 : Fin 1) n k) = BitVec.ofNat 32 k.val := by
    refine (broadcastInDim_apply _ _ _ (ix4 (0 : Fin 1) (0 : Fin 1) n k) (ix4 (0 : Fin 1) (0 : Fin 1) (0 : Fin 1) k)
      (fun a => match a with | ⟨0, _⟩ => rfl | ⟨1, _⟩ => rfl | ⟨2, _⟩ => rfl | ⟨3, _⟩ => rfl)).trans ?_
    refine (broadcastInDim_apply _ _ _ (ix4 (0 : Fin 1) (0 : Fin 1) (0 : Fin 1) k) (ix1 k)
      (fun a => match a with | ⟨0, _⟩ => rfl)).trans ?_
    rfl
  show (FloatOps.uitofp (F := Ideal) .f32 (IntOp.cmpi .eq
      (broadcastInDim S1x1x4096x16 ![0, 1, 2, 3] bcast_S1x1x4096x1_S1x1x4096x16_0_1_2_3
        (broadcastInDim S1x1x4096x1 ![0, 1, 2] bcast_S1x1x4096_S1x1x4096x1_0_1_2 RefTerm.sIds)
        (ix4 (0 : Fin 1) (0 : Fin 1) n k))
      (broadcastInDim S1x1x4096x16 ![0, 1, 2, 3] bcast_S1x1x1x16_S1x1x4096x16_0_1_2_3
        (broadcastInDim S1x1x1x16 ![3] bcast_S16_S1x1x1x16_3 (iotaInDim S16 32 0))
        (ix4 (0 : Fin 1) (0 : Fin 1) n k))) : EReal) = _
  rw [hA, hB]
  exact uitofp_cmpi_eq_ofNat _ _ (by have := n.isLt; omega) (by have := k.isLt; omega)

/-! ## The temporal lookup: the operand indices of its contraction, axis by axis -/

theorem tdot_lhs_0 (i : S1x1x4096x1024.Idx) (q : dot_S1x1x4096x256_S256x1024_S1x1x4096x1024_3_0_012_1_n_n.contr.Idx) :
    (dot_S1x1x4096x256_S256x1024_S1x1x4096x1024_3_0_012_1_n_n.lhsIdx i q 0).val = (i 0).val := by
  unfold DotDims.lhsIdx
  rw [dif_neg (show ¬(0 : Fin S1x1x4096x256.rank) ∈ dot_S1x1x4096x256_S256x1024_S1x1x4096x1024_3_0_012_1_n_n.lhsBatch by decide),
    dif_pos (show (0 : Fin S1x1x4096x256.rank) ∈ dot_S1x1x4096x256_S256x1024_S1x1x4096x1024_3_0_012_1_n_n.lhsNonContracting by decide)]
  rfl
theorem tdot_lhs_1 (i : S1x1x4096x1024.Idx) (q : dot_S1x1x4096x256_S256x1024_S1x1x4096x1024_3_0_012_1_n_n.contr.Idx) :
    (dot_S1x1x4096x256_S256x1024_S1x1x4096x1024_3_0_012_1_n_n.lhsIdx i q 1).val = (i 1).val := by
  unfold DotDims.lhsIdx
  rw [dif_neg (show ¬(1 : Fin S1x1x4096x256.rank) ∈ dot_S1x1x4096x256_S256x1024_S1x1x4096x1024_3_0_012_1_n_n.lhsBatch by decide),
    dif_pos (show (1 : Fin S1x1x4096x256.rank) ∈ dot_S1x1x4096x256_S256x1024_S1x1x4096x1024_3_0_012_1_n_n.lhsNonContracting by decide)]
  rfl
theorem tdot_lhs_2 (i : S1x1x4096x1024.Idx) (q : dot_S1x1x4096x256_S256x1024_S1x1x4096x1024_3_0_012_1_n_n.contr.Idx) :
    (dot_S1x1x4096x256_S256x1024_S1x1x4096x1024_3_0_012_1_n_n.lhsIdx i q 2).val = (i 2).val := by
  unfold DotDims.lhsIdx
  rw [dif_neg (show ¬(2 : Fin S1x1x4096x256.rank) ∈ dot_S1x1x4096x256_S256x1024_S1x1x4096x1024_3_0_012_1_n_n.lhsBatch by decide),
    dif_pos (show (2 : Fin S1x1x4096x256.rank) ∈ dot_S1x1x4096x256_S256x1024_S1x1x4096x1024_3_0_012_1_n_n.lhsNonContracting by decide)]
  rfl
theorem tdot_lhs_3 (i : S1x1x4096x1024.Idx) (q : dot_S1x1x4096x256_S256x1024_S1x1x4096x1024_3_0_012_1_n_n.contr.Idx) :
    (dot_S1x1x4096x256_S256x1024_S1x1x4096x1024_3_0_012_1_n_n.lhsIdx i q 3).val = (q ⟨0, by decide⟩).val :=
  dot_S1x1x4096x256_S256x1024_S1x1x4096x1024_3_0_012_1_n_n.lhsIdx_val_of_single rfl i q
theorem tdot_rhs_0 (i : S1x1x4096x1024.Idx) (q : dot_S1x1x4096x256_S256x1024_S1x1x4096x1024_3_0_012_1_n_n.contr.Idx) :
    (dot_S1x1x4096x256_S256x1024_S1x1x4096x1024_3_0_012_1_n_n.rhsIdx i q 0).val = (q ⟨0, by decide⟩).val :=
  dot_S1x1x4096x256_S256x1024_S1x1x4096x1024_3_0_012_1_n_n.rhsIdx_val_of_single rfl i q
theorem tdot_rhs_1 (i : S1x1x4096x1024.Idx) (q : dot_S1x1x4096x256_S256x1024_S1x1x4096x1024_3_0_012_1_n_n.contr.Idx) :
    (dot_S1x1x4096x256_S256x1024_S1x1x4096x1024_3_0_012_1_n_n.rhsIdx i q 1).val = (i 3).val := by
  unfold DotDims.rhsIdx
  rw [dif_neg (show ¬(1 : Fin S256x1024.rank) ∈ dot_S1x1x4096x256_S256x1024_S1x1x4096x1024_3_0_012_1_n_n.rhsBatch by decide),
    dif_pos (show (1 : Fin S256x1024.rank) ∈ dot_S1x1x4096x256_S256x1024_S1x1x4096x1024_3_0_012_1_n_n.rhsNonContracting by decide)]
  rfl

/-- The temporal lookup at token `n`, feature `h`: the contraction with the one-hot row has one non-zero term, the
    table's row `n / 16`. No finiteness is asked: on the extended reals `0 * x = 0` and `1 * x = x` for every `x`. -/
theorem tdot_lookup_apply (te : FVec Ideal S256x1024 .f32) (n : Fin 4096) (h : Fin 1024) :
    Host.dotGeneral dot_S1x1x4096x256_S256x1024_S1x1x4096x1024_3_0_012_1_n_n none (RefTerm.tHot (F := Ideal)) te
        (ix4 (0 : Fin 1) (0 : Fin 1) n h) = te (ix2 (PosEncode.tid n) h) := by
  simp only [Host.dotGeneral]
  rw [Ideal.dotGeneral_apply,
    ← Equiv.sum_comp (contrEquiv1 dot_S1x1x4096x256_S256x1024_S1x1x4096x1024_3_0_012_1_n_n 256 rfl rfl).symm]
  have term : ∀ k : Fin 256,
      RefTerm.tHot (F := Ideal) (dot_S1x1x4096x256_S256x1024_S1x1x4096x1024_3_0_012_1_n_n.lhsIdx (ix4 (0 : Fin 1) (0 : Fin 1) n h)
          ((contrEquiv1 dot_S1x1x4096x256_S256x1024_S1x1x4096x1024_3_0_012_1_n_n 256 rfl rfl).symm k))
        * te (dot_S1x1x4096x256_S256x1024_S1x1x4096x1024_3_0_012_1_n_n.rhsIdx (ix4 (0 : Fin 1) (0 : Fin 1) n h)
          ((contrEquiv1 dot_S1x1x4096x256_S256x1024_S1x1x4096x1024_3_0_012_1_n_n 256 rfl rfl).symm k))
      = (if n.val / 16 = k.val then 1 else 0) * te (ix2 k h) := by
    intro k
    have hk := contrEquiv1_symm_val dot_S1x1x4096x256_S256x1024_S1x1x4096x1024_3_0_012_1_n_n 256 rfl rfl k
    have el : dot_S1x1x4096x256_S256x1024_S1x1x4096x1024_3_0_012_1_n_n.lhsIdx (ix4 (0 : Fin 1) (0 : Fin 1) n h)
        ((contrEquiv1 dot_S1x1x4096x256_S256x1024_S1x1x4096x1024_3_0_012_1_n_n 256 rfl rfl).symm k) = ix4 (0 : Fin 1) (0 : Fin 1) n k :=
      funext fun a => Fin.ext (by
        match a with
        | ⟨0, _⟩ => exact tdot_lhs_0 _ _
        | ⟨1, _⟩ => exact tdot_lhs_1 _ _
        | ⟨2, _⟩ => exact tdot_lhs_2 _ _
        | ⟨3, _⟩ => exact (tdot_lhs_3 _ _).trans hk)
    have er : dot_S1x1x4096x256_S256x1024_S1x1x4096x1024_3_0_012_1_n_n.rhsIdx (ix4 (0 : Fin 1) (0 : Fin 1) n h)
        ((contrEquiv1 dot_S1x1x4096x256_S256x1024_S1x1x4096x1024_3_0_012_1_n_n 256 rfl rfl).symm k) = ix2 k h :=
      funext fun a => Fin.ext (by
        match a with
        | ⟨0, _⟩ => exact (tdot_rhs_0 _ _).trans hk
        | ⟨1, _⟩ => exact tdot_rhs_1 _ _)
    rw [el, er, tHot_apply]
  rw [Finset.sum_congr rfl (fun k _ => term k), Finset.sum_eq_single (PosEncode.tid n)]
  · rw [if_pos (show n.val / 16 = (PosEncode.tid n).val from rfl), one_mul]
  · intro k _ hkn
    rw [if_neg (fun e => hkn (Fin.ext e.symm)), zero_mul]
  · intro hn
    exact absurd (Finset.mem_univ _) hn

/-! ## The spectral lookup: the operand indices of its contraction, axis by axis -/

theorem sdot_lhs_0 (i : S1x1x4096x1024.Idx) (q : dot_S1x1x4096x16_S16x1024_S1x1x4096x1024_3_0_012_1_n_n.contr.Idx) :
    (dot_S1x1x4096x16_S16x1024_S1x1x4096x1024_3_0_012_1_n_n.lhsIdx i q 0).val = (i 0).val := by
  unfold DotDims.lhsIdx
  rw [dif_neg (show ¬(0 : Fin S1x1x4096x16.rank) ∈ dot_S1x1x4096x16_S16x1024_S1x1x4096x1024_3_0_012_1_n_n.lhsBatch by decide),
    dif_pos (show (0 : Fin S1x1x4096x16.rank) ∈ dot_S1x1x4096x16_S16x1024_S1x1x4096x1024_3_0_012_1_n_n.lhsNonContracting by decide)]
  rfl
theorem sdot_lhs_1 (i : S1x1x4096x1024.Idx) (q : dot_S1x1x4096x16_S16x1024_S1x1x4096x1024_3_0_012_1_n_n.contr.Idx) :
    (dot_S1x1x4096x16_S16x1024_S1x1x4096x1024_3_0_012_1_n_n.lhsIdx i q 1).val = (i 1).val := by
  unfold DotDims.lhsIdx
  rw [dif_neg (show ¬(1 : Fin S1x1x4096x16.rank) ∈ dot_S1x1x4096x16_S16x1024_S1x1x4096x1024_3_0_012_1_n_n.lhsBatch by decide),
    dif_pos (show (1 : Fin S1x1x4096x16.rank) ∈ dot_S1x1x4096x16_S16x1024_S1x1x4096x1024_3_0_012_1_n_n.lhsNonContracting by decide)]
  rfl
theorem sdot_lhs_2 (i : S1x1x4096x1024.Idx) (q : dot_S1x1x4096x16_S16x1024_S1x1x4096x1024_3_0_012_1_n_n.contr.Idx) :
    (dot_S1x1x4096x16_S16x1024_S1x1x4096x1024_3_0_012_1_n_n.lhsIdx i q 2).val = (i 2).val := by
  unfold DotDims.lhsIdx
  rw [dif_neg (show ¬(2 : Fin S1x1x4096x16.rank) ∈ dot_S1x1x4096x16_S16x1024_S1x1x4096x1024_3_0_012_1_n_n.lhsBatch by decide),
    dif_pos (show (2 : Fin S1x1x4096x16.rank) ∈ dot_S1x1x4096x16_S16x1024_S1x1x4096x1024_3_0_012_1_n_n.lhsNonContracting by decide)]
  rfl
theorem sdot_lhs_3 (i : S1x1x4096x1024.Idx) (q : dot_S1x1x4096x16_S16x1024_S1x1x4096x1024_3_0_012_1_n_n.contr.Idx) :
    (dot_S1x1x4096x16_S16x1024_S1x1x4096x1024_3_0_012_1_n_n.lhsIdx i q 3).val = (q ⟨0, by decide⟩).val :=
  dot_S1x1x4096x16_S16x1024_S1x1x4096x1024_3_0_012_1_n_n.lhsIdx_val_of_single rfl i q
theorem sdot_rhs_0 (i : S1x1x4096x1024.Idx) (q : dot_S1x1x4096x16_S16x1024_S1x1x4096x1024_3_0_012_1_n_n.contr.Idx) :
    (dot_S1x1x4096x16_S16x1024_S1x1x4096x1024_3_0_012_1_n_n.rhsIdx i q 0).val = (q ⟨0, by decide⟩).val :=
  dot_S1x1x4096x16_S16x1024_S1x1x4096x1024_3_0_012_1_n_n.rhsIdx_val_of_single rfl i q
theorem sdot_rhs_1 (i : S1x1x4096x1024.Idx) (q : dot_S1x1x4096x16_S16x1024_S1x1x4096x1024_3_0_012_1_n_n.contr.Idx) :
    (dot_S1x1x4096x16_S16x1024_S1x1x4096x1024_3_0_012_1_n_n.rhsIdx i q 1).val = (i 3).val := by
  unfold DotDims.rhsIdx
  rw [dif_neg (show ¬(1 : Fin S16x1024.rank) ∈ dot_S1x1x4096x16_S16x1024_S1x1x4096x1024_3_0_012_1_n_n.rhsBatch by decide),
    dif_pos (show (1 : Fin S16x1024.rank) ∈ dot_S1x1x4096x16_S16x1024_S1x1x4096x1024_3_0_012_1_n_n.rhsNonContracting by decide)]
  rfl

/-- The spectral lookup at token `n`, feature `h`: the contraction with the one-hot row has one non-zero term, the
    table's row `n % 16`. No finiteness is asked: on the extended reals `0 * x = 0` and `1 * x = x` for every `x`. -/
theorem sdot_lookup_apply (se : FVec Ideal S16x1024 .f32) (n : Fin 4096) (h : Fin 1024) :
    Host.dotGeneral dot_S1x1x4096x16_S16x1024_S1x1x4096x1024_3_0_012_1_n_n none (RefTerm.sHot (F := Ideal)) se
        (ix4 (0 : Fin 1) (0 : Fin 1) n h) = se (ix2 (PosEncode.sid n) h) := by
  simp only [Host.dotGeneral]
  rw [Ideal.dotGeneral_apply,
    ← Equiv.sum_comp (contrEquiv1 dot_S1x1x4096x16_S16x1024_S1x1x4096x1024_3_0_012_1_n_n 16 rfl rfl).symm]
  have term : ∀ k : Fin 16,
      RefTerm.sHot (F := Ideal) (dot_S1x1x4096x16_S16x1024_S1x1x4096x1024_3_0_012_1_n_n.lhsIdx (ix4 (0 : Fin 1) (0 : Fin 1) n h)
          ((contrEquiv1 dot_S1x1x4096x16_S16x1024_S1x1x4096x1024_3_0_012_1_n_n 16 rfl rfl).symm k))
        * se (dot_S1x1x4096x16_S16x1024_S1x1x4096x1024_3_0_012_1_n_n.rhsIdx (ix4 (0 : Fin 1) (0 : Fin 1) n h)
          ((contrEquiv1 dot_S1x1x4096x16_S16x1024_S1x1x4096x1024_3_0_012_1_n_n 16 rfl rfl).symm k))
      = (if n.val % 16 = k.val then 1 else 0) * se (ix2 k h) := by
    intro k
    have hk := contrEquiv1_symm_val dot_S1x1x4096x16_S16x1024_S1x1x4096x1024_3_0_012_1_n_n 16 rfl rfl k
    have el : dot_S1x1x4096x16_S16x1024_S1x1x4096x1024_3_0_012_1_n_n.lhsIdx (ix4 (0 : Fin 1) (0 : Fin 1) n h)
        ((contrEquiv1 dot_S1x1x4096x16_S16x1024_S1x1x4096x1024_3_0_012_1_n_n 16 rfl rfl).symm k) = ix4 (0 : Fin 1) (0 : Fin 1) n k :=
      funext fun a => Fin.ext (by
        match a with
        | ⟨0, _⟩ => exact sdot_lhs_0 _ _
        | ⟨1, _⟩ => exact sdot_lhs_1 _ _
        | ⟨2, _⟩ => exact sdot_lhs_2 _ _
        | ⟨3, _⟩ => exact (sdot_lhs_3 _ _).trans hk)
    have er : dot_S1x1x4096x16_S16x1024_S1x1x4096x1024_3_0_012_1_n_n.rhsIdx (ix4 (0 : Fin 1) (0 : Fin 1) n h)
        ((contrEquiv1 dot_S1x1x4096x16_S16x1024_S1x1x4096x1024_3_0_012_1_n_n 16 rfl rfl).symm k) = ix2 k h :=
      funext fun a => Fin.ext (by
        match a with
        | ⟨0, _⟩ => exact (sdot_rhs_0 _ _).trans hk
        | ⟨1, _⟩ => exact sdot_rhs_1 _ _)
    rw [el, er, sHot_apply]
  rw [Finset.sum_congr rfl (fun k _ => term k), Finset.sum_eq_single (PosEncode.sid n)]
  · rw [if_pos (show n.val % 16 = (PosEncode.sid n).val from rfl), one_mul]
  · intro k _ hkn
    rw [if_neg (fun e => hkn (Fin.ext e.symm)), zero_mul]
  · intro hn
    exact absurd (Finset.mem_univ _) hn

/-! ## The rows -/

/-- Token `n`'s row before normalisation, at feature `h`: the temporal table's row `n / 16` plus the spectral
    table's row `n % 16`. -/
theorem rows_apply (te : FVec Ideal S256x1024 .f32) (se : FVec Ideal S16x1024 .f32) (n : Fin 4096) (h : Fin 1024) :
    RefTerm.rows (F := Ideal) te se (ix4 (0 : Fin 1) (0 : Fin 1) n h)
      = PosEncode.row te se (PosEncode.tid n) (PosEncode.sid n) h := by
  unfold RefTerm.rows
  rw [addf_apply, tdot_lookup_apply, sdot_lookup_apply]
  rfl

end Cert.ReferenceIdeal.RefRows

end
-- ==== Proof.RefValue.lean ====
/-
  The reference's composed term is the specification's function, element by element.

  At the extended reals the zero word is 0, so a row sum from the zero word is the plain sum of the row; the word
  of the feature count denotes the real 1024, so `1024 − float(0)` is that same count and the guard `1024 − float(0) > 0`
  holds: the variance's select takes its first branch. The word of ε is the same on both sides and is never evaluated.
-/
import proofs.«137637_g22428319220377_cont_9to1_50_16_alg».proof.Proof.RefRows
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.RefValue

open Idealize.ShloMosaic Idealize.ShloMosaic.ValueIdx
open Cert.ReferenceIdeal Cert.ReferenceIdeal.Facts₀ Cert.ReferenceIdeal.Facts

/-- The f32 word `0x44800000` denotes the real 1024. -/
theorem width_eq : PosEncode.width = ((1024 : ℝ) : EReal) := by
  unfold PosEncode.width
  simp [Ideal.ofBits, Ideal.ieee, -EReal.coe_mul]; norm_num

/-- The feature count is positive. -/
theorem width_pos : (0 : EReal) < PosEncode.width := by
  rw [width_eq]; exact EReal.coe_pos.mpr (by norm_num)

/-- The feature axis of the rows is reduced away. -/
theorem reduces_d3 : S1x1x4096x1024.Reduces [3] S1x1x4096 := by decide

/-- A row sum at token `n`: the sum of that row's 1024 features. -/
theorem rowSum_apply (p : FVec Ideal S1x1x4096x1024 .f32) (n : Fin 4096) :
    RefTerm.rowSum (F := Ideal) p (ix4 (0 : Fin 1) (0 : Fin 1) n (0 : Fin 1))
      = ∑ h' : Fin 1024, p (ix4 (0 : Fin 1) (0 : Fin 1) n h') := by
  unfold RefTerm.rowSum
  rw [broadcastInDim_apply _ _ _ _ (ix3 (0 : Fin 1) (0 : Fin 1) n)
    (fun a => match a with | ⟨0, _⟩ => rfl | ⟨1, _⟩ => rfl | ⟨2, _⟩ => rfl)]
  rw [hostReduceAdd_apply, Ideal.hostReduceAdd_single _ reduces_d3, constant_apply, Ideal.ofBits_zero_f32, zero_add]
  refine Finset.sum_congr rfl (fun k _ => congrArg p ?_)
  funext c
  match c with
  | ⟨0, _⟩ => rfl
  | ⟨1, _⟩ => rfl
  | ⟨2, _⟩ => rfl
  | ⟨3, _⟩ => rfl

/-- The row mean at token `n`: the specification's mean of that row. -/
theorem rowMean_apply (p : FVec Ideal S1x1x4096x1024 .f32) (n : Fin 4096) :
    RefTerm.rowMean (F := Ideal) p (ix4 (0 : Fin 1) (0 : Fin 1) n (0 : Fin 1))
      = PosEncode.rowMean (fun h' => p (ix4 (0 : Fin 1) (0 : Fin 1) n h')) := by
  unfold RefTerm.rowMean PosEncode.rowMean PosEncode.width
  rw [hostDivf_apply, rowSum_apply, broadcastInDim_scalar_apply, constant_apply]

/-- A column spread over the features reads the column's entry of the same token. -/
theorem spread_apply (v : FVec Ideal S1x1x4096x1 .f32) (n : Fin 4096) (h : Fin 1024) :
    RefTerm.spread (F := Ideal) v (ix4 (0 : Fin 1) (0 : Fin 1) n h) = v (ix4 (0 : Fin 1) (0 : Fin 1) n (0 : Fin 1)) := by
  unfold RefTerm.spread
  exact broadcastInDim_apply _ _ _ _ (ix4 (0 : Fin 1) (0 : Fin 1) n (0 : Fin 1))
    (fun a => match a with | ⟨0, _⟩ => rfl | ⟨1, _⟩ => rfl | ⟨2, _⟩ => rfl | ⟨3, _⟩ => rfl)

/-- The variance's divisor `1024 − float(0)` is the feature count. -/
theorem varDen_apply : RefTerm.varDen (F := Ideal) ix0 = PosEncode.width := by
  unfold RefTerm.varDen PosEncode.width
  rw [subf_apply, constant_apply, sitofp_apply]
  show Ideal.ofBits .f32 0x44800000#32 - (((0#32 : BitVec 32).toInt : ℝ) : EReal) = _
  rw [show (0#32 : BitVec 32).toInt = 0 from rfl, Int.cast_zero, EReal.coe_zero, sub_zero]

/-- The guard `1024 − float(0) > 0` holds. -/
theorem varDen_pos_bit :
    cmpf .ogt (RefTerm.varDen (F := Ideal)) (constant (F := Ideal) S_ .f32 0x00000000#32) ix0 = 1#1 := by
  rw [cmpf_apply, varDen_apply, constant_apply, Ideal.ofBits_zero_f32, Ideal.cmpf_def]
  show BitVec.ofBool (decide ((0 : EReal) < PosEncode.width)) = 1#1
  rw [decide_eq_true width_pos]
  rfl

/-- The row variance at token `n`: the guard holds, so it is the specification's variance of that row. -/
theorem rowVar_apply (p : FVec Ideal S1x1x4096x1024 .f32) (n : Fin 4096) :
    RefTerm.rowVar (F := Ideal) p (ix4 (0 : Fin 1) (0 : Fin 1) n (0 : Fin 1))
      = PosEncode.rowVar (fun h' => p (ix4 (0 : Fin 1) (0 : Fin 1) n h')) := by
  unfold RefTerm.rowVar PosEncode.rowVar
  rw [select_apply, broadcastInDim_scalar_apply, varDen_pos_bit, select_one, hostDivf_apply, rowSum_apply,
    broadcastInDim_scalar_apply, varDen_apply]
  refine congrArg (fun s => Ideal.div s PosEncode.width) (Finset.sum_congr rfl fun h' _ => ?_)
  rw [mulf_apply, subf_apply, spread_apply, rowMean_apply]

/-- The host's reciprocal square root at an index. -/
theorem hostRsqrt_apply {s : Shape} {φ : FTy} (a : FVec Ideal s φ) (i : s.Idx) :
    Host.rsqrt a i = Ideal.rsqrt (a i) := rfl

/-- A feature vector spread over the tokens reads its entry at the feature. -/
theorem feat_apply (g : FVec Ideal S1024 .f32) (n : Fin 4096) (h : Fin 1024) :
    broadcastInDim S1x1x4096x1024 ![0, 1, 2, 3] bcast_S1x1x1x1024_S1x1x4096x1024_0_1_2_3
      (broadcastInDim S1x1x1x1024 ![3] bcast_S1024_S1x1x1x1024_3 g) (ix4 (0 : Fin 1) (0 : Fin 1) n h) = g (ix1 h) := by
  rw [broadcastInDim_apply _ _ _ _ (ix4 (0 : Fin 1) (0 : Fin 1) (0 : Fin 1) h)
    (fun a => match a with | ⟨0, _⟩ => rfl | ⟨1, _⟩ => rfl | ⟨2, _⟩ => rfl | ⟨3, _⟩ => rfl)]
  exact broadcastInDim_apply _ _ _ _ (ix1 h) (fun a => match a with | ⟨0, _⟩ => rfl)

/-- The normalised, scaled and shifted rows at token `n`, feature `h`: the layer norm of token `n`'s row. -/
theorem normed_apply (p : FVec Ideal S1x1x4096x1024 .f32) (g b : FVec Ideal S1024 .f32) (n : Fin 4096) (h : Fin 1024) :
    RefTerm.normed (F := Ideal) p g b (ix4 (0 : Fin 1) (0 : Fin 1) n h)
      = PosEncode.lnRow (fun h' => p (ix4 (0 : Fin 1) (0 : Fin 1) n h')) (g (ix1 h)) (b (ix1 h)) h := by
  unfold RefTerm.normed PosEncode.lnRow PosEncode.eps
  rw [addf_apply, mulf_apply, mulf_apply, subf_apply, spread_apply, spread_apply, rowMean_apply, hostRsqrt_apply,
    addf_apply, rowVar_apply, broadcastInDim_scalar_apply, constant_apply, feat_apply, feat_apply]

/-- The reference's result is the specification's function of the arguments. -/
theorem refTerm_eq_G (x : FVec Ideal S4x1x4096x1024 .f32) (te : FVec Ideal S256x1024 .f32) (se : FVec Ideal S16x1024 .f32)
    (g b : FVec Ideal S1024 .f32) :
    RefTerm.refTerm (F := Ideal) x te se g b = PosEncode.G te se g b x := by
  funext i
  obtain ⟨bt, z, n, h, rfl⟩ : ∃ (bt : Fin 4) (z : Fin 1) (n : Fin 4096) (h : Fin 1024), i = ix4 bt z n h :=
    ⟨i 0, i 1, i 2, i 3, eq_ix4 i⟩
  obtain rfl : z = 0 := Subsingleton.elim _ _
  unfold RefTerm.refTerm PosEncode.G PosEncode.pos
  rw [addf_apply, broadcastInDim_apply _ _ _ _ (ix4 (0 : Fin 1) (0 : Fin 1) n h)
    (fun a => match a with | ⟨0, _⟩ => rfl | ⟨1, _⟩ => rfl | ⟨2, _⟩ => rfl | ⟨3, _⟩ => rfl), normed_apply]
  show _ + PosEncode.lnRow (fun h' => RefTerm.rows (F := Ideal) te se (ix4 (0 : Fin 1) (0 : Fin 1) n h')) _ _ _
    = _ + PosEncode.lnRow (PosEncode.row te se (PosEncode.tid n) (PosEncode.sid n)) _ _ _
  rw [show (fun h' => RefTerm.rows (F := Ideal) te se (ix4 (0 : Fin 1) (0 : Fin 1) n h'))
      = PosEncode.row te se (PosEncode.tid n) (PosEncode.sid n) from funext fun h' => RefRows.rows_apply te se n h']

end Cert.ReferenceIdeal.RefValue

end
-- ==== Proof.lean ====
/-
  A fused position-encoding kernel against its reference, over the reals.

  Both programs add to every batch of the activations the position encoding of its token: the layer norm, over the
  1024 features, of (temporal embedding row n / 16) + (spectral embedding row n % 16), scaled and shifted. The reference
  looks the two rows up by contracting one-hot tables with the embeddings — a sum with one non-zero term, which is
  the row — and normalises all 4096 token rows at once; the kernel computes each half of the temporal table's
  encodings once, at the grid's first two points, keeps them in a scratch buffer, and adds them to the eight slabs of
  the activations. On the extended reals both are the same expression of the same table entries (the same sums, the
  same quotients by the printed 1024, the same ε and reciprocal square root), so nothing is rearranged and no
  finiteness is used: the specification `PosEncode.G` is that expression, and each side is shown to compute it.
  The ideal pass rewrote nothing, so the idealization's conjunct is trivial.
-/
import proofs.«137637_g22428319220377_cont_9to1_50_16_alg».proof.Defs
import proofs.«137637_g22428319220377_cont_9to1_50_16_alg».proof.Proof.Gen.Kernel
import proofs.«137637_g22428319220377_cont_9to1_50_16_alg».proof.Proof.Gen.KernelIdeal
import proofs.«137637_g22428319220377_cont_9to1_50_16_alg».proof.Proof.Gen.ReferenceIdeal
import proofs.«137637_g22428319220377_cont_9to1_50_16_alg».proof.Proof.Gen.Pre_finite_inputs
import proofs.«137637_g22428319220377_cont_9to1_50_16_alg».proof.Proof.KernelBody
import proofs.«137637_g22428319220377_cont_9to1_50_16_alg».proof.Proof.KernelIdealBody
import proofs.«137637_g22428319220377_cont_9to1_50_16_alg».proof.Proof.KernelValue
import proofs.«137637_g22428319220377_cont_9to1_50_16_alg».proof.Proof.RefRun
import proofs.«137637_g22428319220377_cont_9to1_50_16_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Body.frame m ρ
/-- So does the idealized kernel. -/
theorem frame_ki : Cert.frame_KernelIdeal := fun m ρ _ => Cert.KernelIdeal.Body.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both idealized programs end with their result array at the specification's function of the arguments. -/
theorem algebraic : Cert.algebraic_KernelIdeal_ReferenceIdeal := by
  intro m ρ m' ρ' _ hagree
  refine ⟨_, Cert.KernelIdeal.KValue.value_run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refTerm_eq_G, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
